-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x50000 : Shape := ⟨2, ![32, 50000]⟩
abbrev S50000x6 : Shape := ⟨2, ![50000, 6]⟩
abbrev S3x6 : Shape := ⟨2, ![3, 6]⟩
abbrev S3 : Shape := ⟨1, ![3]⟩
abbrev S50000x32 : Shape := ⟨2, ![50000, 32]⟩
abbrev S_ : Shape := ⟨0, ![]⟩

class Facts : Prop where
  bcast_S_S32x50000 : S_.BroadcastsInDim S32x50000 (![] : Fin 0 → Fin S32x50000.rank)
  reducesTo_S32x50000_S_d0_1 : S32x50000.ReducesTo [0, 1] S_
  h_S_ : 0 < S_.numel
  bcast_S_S50000x6 : S_.BroadcastsInDim S50000x6 (![] : Fin 0 → Fin S50000x6.rank)
  reducesTo_S50000x6_S_d0_1 : S50000x6.ReducesTo [0, 1] S_
  bcast_S_S3x6 : S_.BroadcastsInDim S3x6 (![] : Fin 0 → Fin S3x6.rank)
  reducesTo_S3x6_S_d0_1 : S3x6.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  main_v18

def fn {F : FTy → Type} [FloatOps F] (main_arg0 : FVec F S32x50000 .f32) (main_arg1 : FVec F S50000x6 .f32) (main_arg2 : FVec F S3x6 .f32) (main_arg3 : FVec F S3 .f32) (main_arg4 : IVec S50000x32 32) : IVec S_ 1 :=
  let main_v0 : FVec F S32x50000 .f32 := Host.absf main_arg0
  let main_cst : FVec F S_ .f32 := constant S_ .f32 0x7F800000#32
  let main_v1 : FVec F S32x50000 .f32 := broadcastInDim S32x50000 ![] bcast_S_S32x50000 main_cst
  let main_v2 : IVec S32x50000 1 := cmpf .olt main_v0 main_v1
  let main_c : IVec S_ 1 := constantI S_ 1 1#1
  let main_v3 : IVec S_ 1 := (fun x v => Host.reduce IntOp.andi x v reducesTo_S32x50000_S_d0_1 h_S_) main_v2 main_c
  let main_v4 : FVec F S50000x6 .f32 := Host.absf main_arg1
  let main_cst_0 : FVec F S_ .f32 := constant S_ .f32 0x7F800000#32
  let main_v5 : FVec F S50000x6 .f32 := broadcastInDim S50000x6 ![] bcast_S_S50000x6 main_cst_0
  let main_v6 : IVec S50000x6 1 := cmpf .olt main_v4 main_v5
  let main_c_1 : IVec S_ 1 := constantI S_ 1 1#1
  let main_v7 : IVec S_ 1 := (fun x v => Host.reduce IntOp.andi x v reducesTo_S50000x6_S_d0_1 h_S_) main_v6 main_c_1
  let main_v8 : IVec S_ 1 := andi main_v3 main_v7
  let main_v9 : FVec F S3x6 .f32 := Host.absf main_arg2
  let main_cst_2 : FVec F S_ .f32 := constant S_ .f32 0x7F800000#32
  let main_v10 : FVec F S3x6 .f32 := broadcastInDim S3x6 ![] bcast_S_S3x6 main_cst_2
  let main_v11 : IVec S3x6 1 := cmpf .olt main_v9 main_v10
  let main_c_3 : IVec S_ 1 := constantI S_ 1 1#1
  let main_v12 : IVec S_ 1 := (fun x v => Host.reduce IntOp.andi x v reducesTo_S3x6_S_d0_1 h_S_) main_v11 main_c_3
  let main_v13 : IVec S_ 1 := andi main_v8 main_v12
  let main_v14 : FVec F S3 .f32 := Host.absf main_arg3
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_v13 main_v16
-- ==== Kernel.lean ====
abbrev S32x50000 : Shape := ⟨2, ![32, 50000]⟩
abbrev S50000x6 : Shape := ⟨2, ![50000, 6]⟩
abbrev S3x6 : Shape := ⟨2, ![3, 6]⟩
abbrev S3 : Shape := ⟨1, ![3]⟩
abbrev S50000x32 : Shape := ⟨2, ![50000, 32]⟩
abbrev S_ : Shape := ⟨0, ![]⟩
abbrev S32x51200 : Shape := ⟨2, ![32, 51200]⟩
abbrev S51200x6 : Shape := ⟨2, ![51200, 6]⟩
abbrev S32x51200x3 : Shape := ⟨3, ![32, 51200, 3]⟩
abbrev S32x1280 : Shape := ⟨2, ![32, 1280]⟩
abbrev S1280x6 : Shape := ⟨2, ![1280, 6]⟩
abbrev S32x1280x3 : Shape := ⟨3, ![32, 1280, 3]⟩
abbrev S32x1280x1 : Shape := ⟨3, ![32, 1280, 1]⟩
abbrev S1x1280x6 : Shape := ⟨3, ![1, 1280, 6]⟩
abbrev S32x1280x6 : Shape := ⟨3, ![32, 1280, 6]⟩
abbrev S32x1280x1x6 : Shape := ⟨4, ![32, 1280, 1, 6]⟩
abbrev S1x1x3x6 : Shape := ⟨4, ![1, 1, 3, 6]⟩
abbrev S32x1280x3x6 : Shape := ⟨4, ![32, 1280, 3, 6]⟩
abbrev S1x1x3 : Shape := ⟨3, ![1, 1, 3]⟩
abbrev S32x50000x3 : Shape := ⟨3, ![32, 50000, 3]⟩
abbrev S50000x32x1 : Shape := ⟨3, ![50000, 32, 1]⟩
abbrev S32x50000x32x3 : Shape := ⟨4, ![32, 50000, 32, 3]⟩
abbrev S32x2000x3 : Shape := ⟨3, ![32, 2000, 3]⟩
abbrev S32x2000x32x3 : Shape := ⟨4, ![32, 2000, 32, 3]⟩
abbrev S2000x32 : Shape := ⟨2, ![2000, 32]⟩
abbrev S32x2000x1x3 : Shape := ⟨4, ![32, 2000, 1, 3]⟩
abbrev S32x2000x32 : Shape := ⟨3, ![32, 2000, 32]⟩

abbrev nBuf : Space → Nat
  | .hbm => 23
  | .vmem => 16
  | .smem => 0
  | _ => 0

abbrev bufTy : (tb : Table) → Fin (tcTables nBuf tb) → BufTy
  | .hbm, ⟨0, _⟩ => ⟨S32x50000, .f32⟩
  | .hbm, ⟨1, _⟩ => ⟨S50000x6, .f32⟩
  | .hbm, ⟨2, _⟩ => ⟨S3x6, .f32⟩
  | .hbm, ⟨3, _⟩ => ⟨S3, .f32⟩
  | .hbm, ⟨4, _⟩ => ⟨S50000x32, .i32⟩
  | .hbm, ⟨5, _⟩ => ⟨S_, .i32⟩
  | .hbm, ⟨6, _⟩ => ⟨S_, .f32⟩
  | .hbm, ⟨7, _⟩ => ⟨S32x51200, .f32⟩
  | .hbm, ⟨8, _⟩ => ⟨S_, .i32⟩
  | .hbm, ⟨9, _⟩ => ⟨S_, .f32⟩
  | .hbm, ⟨10, _⟩ => ⟨S51200x6, .f32⟩
  | .hbm, ⟨11, _⟩ => ⟨S32x51200x3, .bf16⟩
  | .hbm, ⟨12, _⟩ => ⟨S32x50000x3, .bf16⟩
  | .hbm, ⟨13, _⟩ => ⟨S_, .i32⟩
  | .hbm, ⟨14, _⟩ => ⟨S50000x32, .i32⟩
  | .hbm, ⟨15, _⟩ => ⟨S50000x32, .i1⟩
  | .hbm, ⟨16, _⟩ => ⟨S_, .i32⟩
  | .hbm, ⟨17, _⟩ => ⟨S50000x32, .i32⟩
  | .hbm, ⟨18, _⟩ => ⟨S50000x32, .i32⟩
  | .hbm, ⟨19, _⟩ => ⟨S50000x32, .i32⟩
  | .hbm, ⟨20, _⟩ => ⟨S50000x32x1, .i32⟩
  | .hbm, ⟨21, _⟩ => ⟨S32x50000x32x3, .bf16⟩
  | .hbm, ⟨22, _⟩ => ⟨S50000x32, .f32⟩
  | .local _ .vmem, ⟨0, _⟩ => ⟨S32x1280, .f32⟩
  | .local _ .vmem, ⟨1, _⟩ => ⟨S32x1280, .f32⟩
  | .local _ .vmem, ⟨2, _⟩ => ⟨S1280x6, .f32⟩
  | .local _ .vmem, ⟨3, _⟩ => ⟨S1280x6, .f32⟩
  | .local _ .vmem, ⟨4, _⟩ => ⟨S3x6, .f32⟩
  | .local _ .vmem, ⟨5, _⟩ => ⟨S3, .f32⟩
  | .local _ .vmem, ⟨6, _⟩ => ⟨S32x1280x3, .bf16⟩
  | .local _ .vmem, ⟨7, _⟩ => ⟨S32x1280x3, .bf16⟩
  | .local _ .vmem, ⟨8, _⟩ => ⟨S32x2000x3, .bf16⟩
  | .local _ .vmem, ⟨9, _⟩ => ⟨S32x2000x3, .bf16⟩
  | .local _ .vmem, ⟨10, _⟩ => ⟨S32x2000x32x3, .bf16⟩
  | .local _ .vmem, ⟨11, _⟩ => ⟨S32x2000x32x3, .bf16⟩
  | .local _ .vmem, ⟨12, _⟩ => ⟨S2000x32, .i32⟩
  | .local _ .vmem, ⟨13, _⟩ => ⟨S2000x32, .i32⟩
  | .local _ .vmem, ⟨14, _⟩ => ⟨S2000x32, .f32⟩
  | .local _ .vmem, ⟨15, _⟩ => ⟨S2000x32, .f32⟩
  | _, _ => ⟨S32x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_c_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1280x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1280x3 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x2000x3 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x2000x32x3 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S32x50000_S32x51200_000_012000 : S32x50000.Pads (![0, 0] : Fin 2 → Nat) ![0, 1200] ![0, 0] S32x51200
  h_S_ : 0 < S_.numel
  pads_S50000x6_S51200x6_012000_000 : S50000x6.Pads (![0, 0] : Fin 2 → Nat) ![1200, 0] ![0, 0] S51200x6
  inb_S32x1280_S32x1280_0_0 : ∀ a, (![0, 0] : Fin 2 → Nat) a + S32x1280.size a ≤ S32x1280.size a
  h_S32x1280 : 0 < S32x1280.numel
  shapeCasts_S32x1280_S32x1280 : S32x1280.ShapeCasts S32x1280
  inb_S1280x6_S1280x6_0_0 : ∀ a, (![0, 0] : Fin 2 → Nat) a + S1280x6.size a ≤ S1280x6.size a
  h_S1280x6 : 0 < S1280x6.numel
  shapeCasts_S1280x6_S1280x6 : S1280x6.ShapeCasts S1280x6
  shapeCasts_S32x1280_S32x1280x1 : S32x1280.ShapeCasts S32x1280x1
  shapeCasts_S1280x6_S1x1280x6 : S1280x6.ShapeCasts S1x1280x6
  broadcasts_S32x1280x1_S32x1280x6 : S32x1280x1.Broadcasts S32x1280x6
  broadcasts_S1x1280x6_S32x1280x6 : S1x1280x6.Broadcasts S32x1280x6
  inb_S3x6_S3x6_0_0 : ∀ a, (![0, 0] : Fin 2 → Nat) a + S3x6.size a ≤ S3x6.size a
  h_S3x6 : 0 < S3x6.numel
  inb_S3_S3_0 : ∀ a, (![0] : Fin 1 → Nat) a + S3.size a ≤ S3.size a
  h_S3 : 0 < S3.numel
  shapeCasts_S32x1280x6_S32x1280x1x6 : S32x1280x6.ShapeCasts S32x1280x1x6
  shapeCasts_S3x6_S1x1x3x6 : S3x6.ShapeCasts S1x1x3x6
  broadcasts_S32x1280x1x6_S32x1280x3x6 : S32x1280x1x6.Broadcasts S32x1280x3x6
  broadcasts_S1x1x3x6_S32x1280x3x6 : S1x1x3x6.Broadcasts S32x1280x3x6
  reduces_S32x1280x3x6_S32x1280x3 : S32x1280x3x6.Reduces [3] S32x1280x3
  shapeCasts_S3_S1x1x3 : S3.ShapeCasts S1x1x3
  broadcasts_S1x1x3_S32x1280x3 : S1x1x3.Broadcasts S32x1280x3
  bitsLt_bf16_f32 : FTy.bits .bf16 < FTy.bits .f32
  inb_S32x1280x3_S32x1280x3_0_0_0 : ∀ a, (![0, 0, 0] : Fin 3 → Nat) a + S32x1280x3.size a ≤ S32x1280x3.size a
  h_S32x1280x3 : 0 < S32x1280x3.numel
  packedbf16_S32x1280x3_S32x1280x3_0_0_0 : (Rect.unit (s := S32x1280x3) ![0, 0, 0] S32x1280x3.size inb_S32x1280x3_S32x1280x3_0_0_0).PackedRows (EltTy.packing .bf16)
  slices_S32x51200x3_S32x50000x3_0_0_0 : S32x51200x3.Slices ![0, 0, 0] S32x50000x3
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  inb_S32x2000x3_S32x2000x3_0_0_0 : ∀ a, (![0, 0, 0] : Fin 3 → Nat) a + S32x2000x3.size a ≤ S32x2000x3.size a
  h_S32x2000x3 : 0 < S32x2000x3.numel
  shapeCasts_S32x2000x3_S32x2000x3 : S32x2000x3.ShapeCasts S32x2000x3
  inb_S32x2000x32x3_S32x2000x32x3_0_0_0_0 : ∀ a, (![0, 0, 0, 0] : Fin 4 → Nat) a + S32x2000x32x3.size a ≤ S32x2000x32x3.size a
  h_S32x2000x32x3 : 0 < S32x2000x32x3.numel
  shapeCasts_S32x2000x32x3_S32x2000x32x3 : S32x2000x32x3.ShapeCasts S32x2000x32x3
  shapeCasts_S32x2000x3_S32x2000x1x3 : S32x2000x3.ShapeCasts S32x2000x1x3
  broadcasts_S32x2000x1x3_S32x2000x32x3 : S32x2000x1x3.Broadcasts S32x2000x32x3
  reduces_S32x2000x32x3_S32x2000x32 : S32x2000x32x3.Reduces [3] S32x2000x32
  reduces_S32x2000x32_S2000x32 : S32x2000x32.Reduces [0] S2000x32
  inb_S2000x32_S2000x32_0_0 : ∀ a, (![0, 0] : Fin 2 → Nat) a + S2000x32.size a ≤ S2000x32.size a
  h_S2000x32 : 0 < S2000x32.numel
  natLt_1_32 : 1 < 32
  gather_S32x50000x3_S50000x32x1_S32x50000x32x3_03_1_n_n_1_2_3213_wf : GatherDims.WF S32x50000x3 S50000x32x1 S32x50000x32x3 [0, 3] [1] [] [1] [] 2 ![32, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1280.size a ≤ S32x51200.size a
  hwx0_0 : ∀ i : grid0.Coords, EltTy.bits .f32 = 32 ∨ (Rect.block (s := S32x51200) S32x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x6.size a ≤ S51200x6.size a
  hwx0_1 : ∀ i : grid0.Coords, EltTy.bits .f32 = 32 ∨ (Rect.block (s := S51200x6) S1280x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x6.size a ≤ S3x6.size a
  hwx0_2 : ∀ i : grid0.Coords, EltTy.bits .f32 = 32 ∨ (Rect.block (s := S3x6) S3x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3.size a ≤ S3.size a
  hwx0_3 : ∀ i : grid0.Coords, EltTy.bits .f32 = 32 ∨ (Rect.block (s := S3) S3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1280x3.size a ≤ S32x51200x3.size a
  hwx0_4 : ∀ i : grid0.Coords, EltTy.bits .bf16 = 32 ∨ (Rect.block (s := S32x51200x3) S32x1280x3.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x2000x3.size a ≤ S32x50000x3.size a
  hwx1_0 : ∀ i : grid1.Coords, EltTy.bits .bf16 = 32 ∨ (Rect.block (s := S32x50000x3) S32x2000x3.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x2000x32x3.size a ≤ S32x50000x32x3.size a
  hwx1_1 : ∀ i : grid1.Coords, EltTy.bits .bf16 = 32 ∨ (Rect.block (s := S32x50000x32x3) S32x2000x32x3.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S50000x32.size a
  hwx1_2 : ∀ i : grid1.Coords, EltTy.bits .i32 = 32 ∨ (Rect.block (s := S50000x32) S2000x32.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x32.size a ≤ S50000x32.size a
  hwx1_3 : ∀ i : grid1.Coords, EltTy.bits .f32 = 32 ∨ (Rect.block (s := S50000x32) S2000x32.size (cc1_transform_3 i) (hinb1_3 i)).WholeWords (EltTy.packing .f32)

variable [Facts₀]

def gather_S32x50000x3_S50000x32x1_S32x50000x32x3_03_1_n_n_1_2_3213 : GatherDims S32x50000x3 S50000x32x1 S32x50000x32x3 where
  offsetDims := [0, 3]
  collapsedSliceDims := [1]
  operandBatchingDims := []
  startIndicesBatchingDims := []
  startIndexMap := [1]
  indexVectorDim := 2
  sliceSizes := ![32, 1, 3]
  wf := gather_S32x50000x3_S50000x32x1_S32x50000x32x3_03_1_n_n_1_2_3213_wf

abbrev win0_0 : Pipeline.Window sig grid0 :=
  Pipeline.Window.ofSpec (Memref.whole main_v0) S32x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1280x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S32x1280x3.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S32x2000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S32x2000x32x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x50000 : Shape := ⟨2, ![32, 50000]⟩
abbrev S50000x6 : Shape := ⟨2, ![50000, 6]⟩
abbrev S3x6 : Shape := ⟨2, ![3, 6]⟩
abbrev S3 : Shape := ⟨1, ![3]⟩
abbrev S50000x32 : Shape := ⟨2, ![50000, 32]⟩
abbrev S32x50000x1 : Shape := ⟨3, ![32, 50000, 1]⟩
abbrev S1x50000x6 : Shape := ⟨3, ![1, 50000, 6]⟩
abbrev S32x50000x6 : Shape := ⟨3, ![32, 50000, 6]⟩
abbrev S32x50000x3 : Shape := ⟨3, ![32, 50000, 3]⟩
abbrev S1x1x3 : Shape := ⟨3, ![1, 1, 3]⟩
abbrev S_ : Shape := ⟨0, ![]⟩
abbrev S50000x32x1 : Shape := ⟨3, ![50000, 32, 1]⟩
abbrev S32x50000x32x3 : Shape := ⟨4, ![32, 50000, 32, 3]⟩
abbrev S32x50000x1x3 : Shape := ⟨4, ![32, 50000, 1, 3]⟩
abbrev S32x50000x32 : Shape := ⟨3, ![32, 50000, 32]⟩

abbrev nBuf : Space → Nat
  | .hbm => 52
  | .vmem => 0
  | .smem => 0
  | _ => 0

abbrev bufTy : (tb : Table) → Fin (tcTables nBuf tb) → BufTy
  | .hbm, ⟨0, _⟩ => ⟨S32x50000, .f32⟩
  | .hbm, ⟨1, _⟩ => ⟨S50000x6, .f32⟩
  | .hbm, ⟨2, _⟩ => ⟨S3x6, .f32⟩
  | .hbm, ⟨3, _⟩ => ⟨S3, .f32⟩
  | .hbm, ⟨4, _⟩ => ⟨S50000x32, .i32⟩
  | .hbm, ⟨5, _⟩ => ⟨S32x50000x1, .f32⟩
  | .hbm, ⟨6, _⟩ => ⟨S1x50000x6, .f32⟩
  | .hbm, ⟨7, _⟩ => ⟨S32x50000x6, .f32⟩
  | .hbm, ⟨8, _⟩ => ⟨S32x50000x6, .f32⟩
  | .hbm, ⟨9, _⟩ => ⟨S32x50000x6, .f32⟩
  | .hbm, ⟨10, _⟩ => ⟨S32x50000x3, .f32⟩
  | .hbm, ⟨11, _⟩ => ⟨S1x1x3, .f32⟩
  | .hbm, ⟨12, _⟩ => ⟨S32x50000x3, .f32⟩
  | .hbm, ⟨13, _⟩ => ⟨S32x50000x3, .f32⟩
  | .hbm, ⟨14, _⟩ => ⟨S_, .f32⟩
  | .hbm, ⟨15, _⟩ => ⟨S_, .f32⟩
  | .hbm, ⟨16, _⟩ => ⟨S32x50000x3, .f32⟩
  | .hbm, ⟨17, _⟩ => ⟨S32x50000x3, .i1⟩
  | .hbm, ⟨18, _⟩ => ⟨S_, .f32⟩
  | .hbm, ⟨19, _⟩ => ⟨S32x50000x3, .f32⟩
  | .hbm, ⟨20, _⟩ => ⟨S32x50000x3, .f32⟩
  | .hbm, ⟨21, _⟩ => ⟨S32x50000x3, .f32⟩
  | .hbm, ⟨22, _⟩ => ⟨S_, .i32⟩
  | .hbm, ⟨23, _⟩ => ⟨S50000x32, .i32⟩
  | .hbm, ⟨24, _⟩ => ⟨S50000x32, .i1⟩
  | .hbm, ⟨25, _⟩ => ⟨S_, .i32⟩
  | .hbm, ⟨26, _⟩ => ⟨S50000x32, .i32⟩
  | .hbm, ⟨27, _⟩ => ⟨S50000x32, .i32⟩
  | .hbm, ⟨28, _⟩ => ⟨S50000x32, .i32⟩
  | .hbm, ⟨29, _⟩ => ⟨S50000x32x1, .i32⟩
  | .hbm, ⟨30, _⟩ => ⟨S32x50000x32x3, .f32⟩
  | .hbm, ⟨31, _⟩ => ⟨S32x50000x1x3, .f32⟩
  | .hbm, ⟨32, _⟩ => ⟨S32x50000x32x3, .f32⟩
  | .hbm, ⟨33, _⟩ => ⟨S32x50000x32x3, .f32⟩
  | .hbm, ⟨34, _⟩ => ⟨S32x50000x32x3, .f32⟩
  | .hbm, ⟨35, _⟩ => ⟨S_, .f32⟩
  | .hbm, ⟨36, _⟩ => ⟨S32x50000x32, .f32⟩
  | .hbm, ⟨37, _⟩ => ⟨S32x50000x32, .f32⟩
  | .hbm, ⟨38, _⟩ => ⟨S_, .f32⟩
  | .hbm, ⟨39, _⟩ => ⟨S32x50000x32, .f32⟩
  | .hbm, ⟨40, _⟩ => ⟨S32x50000x32, .f32⟩
  | .hbm, ⟨41, _⟩ => ⟨S32x50000x32, .f32⟩
  | .hbm, ⟨42, _⟩ => ⟨S_, .f32⟩
  | .hbm, ⟨43, _⟩ => ⟨S50000x32, .f32⟩
  | .hbm, ⟨44, _⟩ => ⟨S_, .f32⟩
  | .hbm, ⟨45, _⟩ => ⟨S50000x32, .f32⟩
  | .hbm, ⟨46, _⟩ => ⟨S50000x32, .f32⟩
  | .hbm, ⟨47, _⟩ => ⟨S_, .i32⟩
  | .hbm, ⟨48, _⟩ => ⟨S50000x32, .i32⟩
  | .hbm, ⟨49, _⟩ => ⟨S50000x32, .i1⟩
  | .hbm, ⟨50, _⟩ => ⟨S50000x32, .f32⟩
  | .hbm, ⟨51, _⟩ => ⟨S50000x32, .f32⟩
  | _, _ => ⟨S32x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v9 : Ref sig .tc := ⟨.hbm, 21, rfl⟩
abbrev main_c : Ref sig .tc := ⟨.hbm, 22, rfl⟩
abbrev main_v10 : Ref sig .tc := ⟨.hbm, 23, rfl⟩
abbrev main_v11 : Ref sig .tc := ⟨.hbm, 24, rfl⟩
abbrev main_c_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]

class Facts₀ : Prop where
  bcast_S32x50000_S32x50000x1_0_1 : S32x50000.BroadcastsInDim S32x50000x1 (![0, 1] : Fin 2 → Fin S32x50000x1.rank)
  bcast_S50000x6_S1x50000x6_1_2 : S50000x6.BroadcastsInDim S1x50000x6 (![1, 2] : Fin 2 → Fin S1x50000x6.rank)
  bcast_S32x50000x1_S32x50000x6_0_1_2 : S32x50000x1.BroadcastsInDim S32x50000x6 (![0, 1, 2] : Fin 3 → Fin S32x50000x6.rank)
  bcast_S1x50000x6_S32x50000x6_0_1_2 : S1x50000x6.BroadcastsInDim S32x50000x6 (![0, 1, 2] : Fin 3 → Fin S32x50000x6.rank)
  bcast_S3_S1x1x3_2 : S3.BroadcastsInDim S1x1x3 (![2] : Fin 1 → Fin S1x1x3.rank)
  bcast_S1x1x3_S32x50000x3_0_1_2 : S1x1x3.BroadcastsInDim S32x50000x3 (![0, 1, 2] : Fin 3 → Fin S32x50000x3.rank)
  bcast_S_S32x50000x3 : S_.BroadcastsInDim S32x50000x3 (![] : Fin 0 → Fin S32x50000x3.rank)
  bcast_S_S50000x32 : S_.BroadcastsInDim S50000x32 (![] : Fin 0 → Fin S50000x32.rank)
  bcast_S50000x32_S50000x32x1_0_1 : S50000x32.BroadcastsInDim S50000x32x1 (![0, 1] : Fin 2 → Fin S50000x32x1.rank)
  bcast_S32x50000x3_S32x50000x1x3_0_1_3 : S32x50000x3.BroadcastsInDim S32x50000x1x3 (![0, 1, 3] : Fin 3 → Fin S32x50000x1x3.rank)
  bcast_S32x50000x1x3_S32x50000x32x3_0_1_2_3 : S32x50000x1x3.BroadcastsInDim S32x50000x32x3 (![0, 1, 2, 3] : Fin 4 → Fin S32x50000x32x3.rank)
  reducesTo_S32x50000x32x3_S32x50000x32_d3 : S32x50000x32x3.ReducesTo [3] S32x50000x32
  h_S_ : 0 < S_.numel
  bcast_S_S32x50000x32 : S_.BroadcastsInDim S32x50000x32 (![] : Fin 0 → Fin S32x50000x32.rank)
  reducesTo_S32x50000x32_S50000x32_d0 : S32x50000x32.ReducesTo [0] S50000x32
  dot_S32x50000x6_S3x6_S32x50000x3_2_1_01_0_n_n_wf : DotDims.WF S32x50000x6 S3x6 S32x50000x3 [2] [1] [0, 1] [0] [] []
  gather_S32x50000x3_S50000x32x1_S32x50000x32x3_03_1_n_n_1_2_3213_wf : GatherDims.WF S32x50000x3 S50000x32x1 S32x50000x32x3 [0, 3] [1] [] [1] [] 2 ![32, 1, 3]

variable [Facts₀]

def dot_S32x50000x6_S3x6_S32x50000x3_2_1_01_0_n_n : DotDims S32x50000x6 S3x6 S32x50000x3 where
  lhsContracting := [2]
  rhsContracting := [1]
  lhsNonContracting := [0, 1]
  rhsNonContracting := [0]
  lhsBatch := []
  rhsBatch := []
  wf := dot_S32x50000x6_S3x6_S32x50000x3_2_1_01_0_n_n_wf
def gather_S32x50000x3_S50000x32x1_S32x50000x32x3_03_1_n_n_1_2_3213 : GatherDims S32x50000x3 S50000x32x1 S32x50000x32x3 where
  offsetDims := [0, 3]
  collapsedSliceDims := [1]
  operandBatchingDims := []
  startIndicesBatchingDims := []
  startIndexMap := [1]
  indexVectorDim := 2
  sliceSizes := ![32, 1, 3]
  wf := gather_S32x50000x3_S50000x32x1_S32x50000x32x3_03_1_n_n_1_2_3213_wf

class Facts : Prop extends Facts₀ where

variable [Facts]
-- ==== Proof.Spec.lean ====
/-
  The mathematics both programs compute, stated once over the extended reals.

  A node n of a graph carries, per batch row b, a scalar x[b, n] and an embedding ne[n, ·] of six
  numbers. Its three features are a leaky-ReLU layer of the sum x + ne:
      f[b, n, j] = leaky (Σ_e (x[b, n] + ne[n, e]) · w[j, e] + bias[j]),    leaky p = p if 0 ≤ p else c · p,
  with c the binary32 number nearest 0.2 (the same word in both programs, never evaluated).
  An edge (n, k) to the neighbour whose features the gather G brought to position (·, n, k, ·) weighs
      wgt = (Σ_b exp (−Σ_j (f[b, n, j] − G f [b, n, k, j])²  / 1)) / 32 · [0 ≤ a[n, k]],
  the bracket read as 0 or 1 off the neighbour word a[n, k].
  The gather is a parameter: both programs apply the same one, and nothing here looks inside it.
-/
import Idealize.ShloMosaic.PureOps.Ideal.Laws
import Idealize.ShloMosaic.Lib.ValueIdx

noncomputable section

namespace Cert.Spec

open Idealize.ShloMosaic Idealize.ShloMosaic.ValueIdx

abbrev SX : Shape := ⟨2, ![32, 50000]⟩
abbrev SNE : Shape := ⟨2, ![50000, 6]⟩
abbrev SW : Shape := ⟨2, ![3, 6]⟩
abbrev SB : Shape := ⟨1, ![3]⟩
abbrev SA : Shape := ⟨2, ![50000, 32]⟩
abbrev SF : Shape := ⟨3, ![32, 50000, 3]⟩
abbrev SG : Shape := ⟨4, ![32, 50000, 32, 3]⟩

/-- The activation: the argument where it is not below zero, else the slope's word times it. -/
def leaky (p : EReal) : EReal :=
  Scalar.select (Ideal.cmp .oge p (Ideal.ofBits .f32 0x00000000#32)) p (Ideal.ofBits .f32 0x3E4CCCCD#32 * p)

/-- One feature of one node in one batch row. -/
def mlp (x : EReal) (ne w : Fin 6 → EReal) (b : EReal) : EReal :=
  leaky ((∑ e : Fin 6, (x + ne e) * w e) + b)

/-- The neighbour word's mask: one where the word is not negative, else zero. -/
def mask (a : BitVec 32) : EReal := (((IntOp.cmpi .sge a 0#32).toNat : ℝ) : EReal)

/-- An edge's weight from the node's features `f b j`, the neighbour's `g b j` and the neighbour word. -/
def wgt (f g : Fin 32 → Fin 3 → EReal) (a : BitVec 32) : EReal :=
  Ideal.div (∑ b : Fin 32, Ideal.exp (Ideal.div (-(∑ j : Fin 3, (f b j - g b j) * (f b j - g b j)))
      (Ideal.ofBits .f32 0x3F800000#32))) (Ideal.ofBits .f32 0x42000000#32) * mask a

/-- Feature j of node n in batch row b, from the argument arrays. -/
def featAt (x : FVec Ideal SX .f32) (ne : FVec Ideal SNE .f32) (w : FVec Ideal SW .f32) (b : FVec Ideal SB .f32)
    (bb : Fin 32) (n : Fin 50000) (j : Fin 3) : EReal :=
  mlp (x (ix2 bb n)) (fun e => ne (ix2 n e)) (fun e => w (ix2 j e)) (b (ix1 j))

/-- The whole feature array. -/
def feat (x : FVec Ideal SX .f32) (ne : FVec Ideal SNE .f32) (w : FVec Ideal SW .f32) (b : FVec Ideal SB .f32) :
    FVec Ideal SF .f32 :=
  fun i => featAt x ne w b (i 0) (i 1) (i 2)

theorem feat_ix3 (x : FVec Ideal SX .f32) (ne : FVec Ideal SNE .f32) (w : FVec Ideal SW .f32) (b : FVec Ideal SB .f32)
    (bb : Fin 32) (n : Fin 50000) (j : Fin 3) : feat x ne w b (ix3 bb n j) = featAt x ne w b bb n j := rfl

/-- The weight of edge (n, k), the neighbours' features brought by `G`. -/
def resultAt (G : FVec Ideal SF .f32 → FVec Ideal SG .f32) (x : FVec Ideal SX .f32) (ne : FVec Ideal SNE .f32)
    (w : FVec Ideal SW .f32) (b : FVec Ideal SB .f32) (a : IVec SA 32) (n : Fin 50000) (k : Fin 32) : EReal :=
  wgt (fun bb j => featAt x ne w b bb n j) (fun bb j => G (feat x ne w b) (ix4 bb n k j)) (a (ix2 n k))

/-- The result array. -/
def result (G : FVec Ideal SF .f32 → FVec Ideal SG .f32) (x : FVec Ideal SX .f32) (ne : FVec Ideal SNE .f32)
    (w : FVec Ideal SW .f32) (b : FVec Ideal SB .f32) (a : IVec SA 32) : FVec Ideal SA .f32 :=
  fun i => resultAt G x ne w b a (i 0) (i 1)

theorem result_ix2 (G : FVec Ideal SF .f32 → FVec Ideal SG .f32) (x : FVec Ideal SX .f32) (ne : FVec Ideal SNE .f32)
    (w : FVec Ideal SW .f32) (b : FVec Ideal SB .f32) (a : IVec SA 32) (n : Fin 50000) (k : Fin 32) :
    result G x ne w b a (ix2 n k) = resultAt G x ne w b a n k := rfl

end Cert.Spec

end
-- ==== Proof.Payload.lean ====
/-
  The two kernel bodies' arithmetic, read at one index over the extended reals.

  Each body's stored value is a chain of elementwise operations, reshapes, broadcasts and sums over one axis.
  Read at one index, the elementwise operations act on the elements; a reshape or broadcast reads its operand at
  the index with the unit axes dropped or set to zero; a sum over one axis is the finite sum over that axis's
  coordinate. What is left is the specification's scalar formula in the loaded blocks' entries.
-/
import proofs.«414107_j53626961658417_1_alg».proof.Proof.Spec
import proofs.«414107_j53626961658417_1_alg».proof.Proof.Gen.KernelIdeal.Skeleton
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen

/-! ## The first body's layout operations at explicit coordinates -/

section Layout0
variable {α : Type}

/-- [32,1280] read as [32,1280,1]: the unit axis carries nothing. -/
theorem cast_col (x : S32x1280.Idx → α) (h : S32x1280.ShapeCasts S32x1280x1) (b : Fin 32) (r : Fin 1280) (z : Fin 1) :
    shapeCast S32x1280x1 x h (ix3 b r z) = x (ix2 b r) := by
  apply shapeCast_apply
  rw [Shape.rowMajor_val_two, Shape.rowMajor_val_three]
  show b.val * 1280 + r.val = (b.val * 1280 + r.val) * 1 + z.val
  omega

/-- [1280,6] read as [1,1280,6]. -/
theorem cast_lead (x : S1280x6.Idx → α) (h : S1280x6.ShapeCasts S1x1280x6) (z : Fin 1) (r : Fin 1280) (e : Fin 6) :
    shapeCast S1x1280x6 x h (ix3 z r e) = x (ix2 r e) := by
  apply shapeCast_apply
  rw [Shape.rowMajor_val_two, Shape.rowMajor_val_three]
  show r.val * 6 + e.val = (z.val * 1280 + r.val) * 6 + e.val
  omega

/-- [32,1280,1] spread along a last axis of six. -/
theorem bc_col (x : S32x1280x1.Idx → α) (h : S32x1280x1.Broadcasts S32x1280x6) (b : Fin 32) (r : Fin 1280) (e : Fin 6) :
    broadcastTo S32x1280x6 x h (ix3 b r e) = x (ix3 b r 0) := by
  apply broadcastTo_apply
  intro a
  match a with
  | ⟨0, _⟩ => rfl
  | ⟨1, _⟩ => rfl
  | ⟨2, _⟩ => rfl

/-- [1,1280,6] spread along a leading axis of thirty-two. -/
theorem bc_lead (x : S1x1280x6.Idx → α) (h : S1x1280x6.Broadcasts S32x1280x6) (b : Fin 32) (r : Fin 1280) (e : Fin 6) :
    broadcastTo S32x1280x6 x h (ix3 b r e) = x (ix3 0 r e) := by
  apply broadcastTo_apply
  intro a
  match a with
  | ⟨0, _⟩ => rfl
  | ⟨1, _⟩ => rfl
  | ⟨2, _⟩ => rfl

/-- [32,1280,6] read as [32,1280,1,6]. -/
theorem cast_mid (x : S32x1280x6.Idx → α) (h : S32x1280x6.ShapeCasts S32x1280x1x6) (b : Fin 32) (r : Fin 1280) (z : Fin 1) (e : Fin 6) :
    shapeCast S32x1280x1x6 x h (ix4 b r z e) = x (ix3 b r e) := by
  apply shapeCast_apply
  rw [Shape.rowMajor_val_three, Shape.rowMajor_val_four]
  show (b.val * 1280 + r.val) * 6 + e.val = ((b.val * 1280 + r.val) * 1 + z.val) * 6 + e.val
  omega

/-- [3,6] read as [1,1,3,6]. -/
theorem cast_w (x : S3x6.Idx → α) (h : S3x6.ShapeCasts S1x1x3x6) (z z' : Fin 1) (j : Fin 3) (e : Fin 6) :
    shapeCast S1x1x3x6 x h (ix4 z z' j e) = x (ix2 j e) := by
  apply shapeCast_apply
  rw [Shape.rowMajor_val_two, Shape.rowMajor_val_four]
  show j.val * 6 + e.val = ((z.val * 1 + z'.val) * 3 + j.val) * 6 + e.val
  omega

/-- [32,1280,1,6] spread along a third axis of three. -/
theorem bc_mid (x : S32x1280x1x6.Idx → α) (h : S32x1280x1x6.Broadcasts S32x1280x3x6) (b : Fin 32) (r : Fin 1280) (j : Fin 3) (e : Fin 6) :
    broadcastTo S32x1280x3x6 x h (ix4 b r j e) = x (ix4 b r 0 e) := by
  apply broadcastTo_apply
  intro a
  match a with
  | ⟨0, _⟩ => rfl
  | ⟨1, _⟩ => rfl
  | ⟨2, _⟩ => rfl
  | ⟨3, _⟩ => rfl

/-- [1,1,3,6] spread along the two leading axes. -/
theorem bc_w (x : S1x1x3x6.Idx → α) (h : S1x1x3x6.Broadcasts S32x1280x3x6) (b : Fin 32) (r : Fin 1280) (j : Fin 3) (e : Fin 6) :
    broadcastTo S32x1280x3x6 x h (ix4 b r j e) = x (ix4 0 0 j e) := by
  apply broadcastTo_apply
  intro a
  match a with
  | ⟨0, _⟩ => rfl
  | ⟨1, _⟩ => rfl
  | ⟨2, _⟩ => rfl
  | ⟨3, _⟩ => rfl

/-- [3] read as [1,1,3]. -/
theorem cast_bias (x : S3.Idx → α) (h : S3.ShapeCasts S1x1x3) (z z' : Fin 1) (j : Fin 3) :
    shapeCast S1x1x3 x h (ix3 z z' j) = x (ix1 j) := by
  apply shapeCast_apply
  rw [Shape.rowMajor_val_one, Shape.rowMajor_val_three]
  show j.val = (z.val * 1 + z'.val) * 3 + j.val
  omega

/-- [1,1,3] spread along the two leading axes. -/
theorem bc_bias (x : S1x1x3.Idx → α) (h : S1x1x3.Broadcasts S32x1280x3) (b : Fin 32) (r : Fin 1280) (j : Fin 3) :
    broadcastTo S32x1280x3 x h (ix3 b r j) = x (ix3 0 0 j) := by
  apply broadcastTo_apply
  intro a
  match a with
  | ⟨0, _⟩ => rfl
  | ⟨1, _⟩ => rfl
  | ⟨2, _⟩ => rfl

/-- The index a sum over the last axis of [32,1280,3,6] inserts its coordinate into. -/
theorem lift0 (h : S32x1280x3x6.Reduces [3] S32x1280x3) (b : Fin 32) (r : Fin 1280) (j : Fin 3) (e : Fin 6) :
    h.lift (ix3 b r j) e = ix4 b r j e := by
  funext a
  match a with
  | ⟨0, _⟩ => rfl
  | ⟨1, _⟩ => rfl
  | ⟨2, _⟩ => rfl
  | ⟨3, _⟩ => rfl

end Layout0

/-- The sum over the last axis of a [32,1280,3,6] array at (b, r, j). -/
theorem sum0 (v : FVec Ideal S32x1280x3x6 .f32) (h : S32x1280x3x6.Reduces [3] S32x1280x3) (hφ : FTy.f32 = FTy.f32 ∨ FTy.f32 = FTy.bf16)
    (hacc : (0x00000000#32 : BitVec 32) = 0x00000000#32) (b : Fin 32) (r : Fin 1280) (j : Fin 3) :
    multiReduction (F := Ideal) .add [3] S32x1280x3 v 0x00000000#32 h hφ hacc (ix3 b r j) = ∑ e : Fin 6, v (ix4 b r j e) := by
  refine (Ideal.multiReduction_add_single v 0x00000000#32 h hφ hacc (ix3 b r j)).trans ?_
  show ∑ e : Fin 6, v (h.lift (ix3 b r j) e) = _
  exact Finset.sum_congr rfl fun e _ => congrArg v (lift0 h b r j e)

/-- The first body's stored value at (b, r, j) of its block: the node feature of the block's row r. -/
theorem pay0_apply (x0 : Vec Ideal S32x1280 .f32) (x1 : Vec Ideal S1280x6 .f32) (x2 : Vec Ideal S3x6 .f32) (x3 : Vec Ideal S3 .f32)
    (b : Fin 32) (r : Fin 1280) (j : Fin 3) :
    (k0_pay1 (F := Ideal) x0 x1 x2 x3) (ix3 b r j)
      = Cert.Spec.mlp (x0 (ix2 b r)) (fun e => x1 (ix2 r e)) (fun e => x2 (ix2 j e)) (x3 (ix1 j)) := by
  unfold k0_pay1 Cert.Spec.mlp Cert.Spec.leaky
  simp only [truncf_apply, select_apply, cmpf_apply, mulf_apply, addf_apply, broadcast_apply]
  rw [sum0]
  simp only [mulf_apply, addf_apply, bc_mid, cast_mid, bc_col, bc_lead, cast_col, cast_lead, bc_w, cast_w, bc_bias, cast_bias,
    shapeCast_self]
  rfl

/-! ## The second body's operations at explicit coordinates -/

section Layout1
variable {α : Type}

/-- [32,2000,3] read as [32,2000,1,3]. -/
theorem cast_f (x : S32x2000x3.Idx → α) (h : S32x2000x3.ShapeCasts S32x2000x1x3) (b : Fin 32) (r : Fin 2000) (z : Fin 1) (j : Fin 3) :
    shapeCast S32x2000x1x3 x h (ix4 b r z j) = x (ix3 b r j) := by
  apply shapeCast_apply
  rw [Shape.rowMajor_val_three, Shape.rowMajor_val_four]
  show (b.val * 2000 + r.val) * 3 + j.val = ((b.val * 2000 + r.val) * 1 + z.val) * 3 + j.val
  omega

/-- [32,2000,1,3] spread along a third axis of thirty-two. -/
theorem bc_f (x : S32x2000x1x3.Idx → α) (h : S32x2000x1x3.Broadcasts S32x2000x32x3) (b : Fin 32) (r : Fin 2000) (k : Fin 32) (j : Fin 3) :
    broadcastTo S32x2000x32x3 x h (ix4 b r k j) = x (ix4 b r 0 j) := by
  apply broadcastTo_apply
  intro a
  match a with
  | ⟨0, _⟩ => rfl
  | ⟨1, _⟩ => rfl
  | ⟨2, _⟩ => rfl
  | ⟨3, _⟩ => rfl

/-- The index a sum over the last axis of [32,2000,32,3] inserts its coordinate into. -/
theorem lift1 (h : S32x2000x32x3.Reduces [3] S32x2000x32) (b : Fin 32) (r : Fin 2000) (k : Fin 32) (j : Fin 3) :
    h.lift (ix3 b r k) j = ix4 b r k j := by
  funext a
  match a with
  | ⟨0, _⟩ => rfl
  | ⟨1, _⟩ => rfl
  | ⟨2, _⟩ => rfl
  | ⟨3, _⟩ => rfl

/-- The index a sum over the first axis of [32,2000,32] inserts its coordinate into. -/
theorem lift2 (h : S32x2000x32.Reduces [0] S2000x32) (r : Fin 2000) (k : Fin 32) (b : Fin 32) :
    h.lift (ix2 r k) b = ix3 b r k := by
  funext a
  match a with
  | ⟨0, _⟩ => rfl
  | ⟨1, _⟩ => rfl
  | ⟨2, _⟩ => rfl

end Layout1

/-- The sum over the last axis of a [32,2000,32,3] array at (b, r, k). -/
theorem sum1 (v : FVec Ideal S32x2000x32x3 .f32) (h : S32x2000x32x3.Reduces [3] S32x2000x32) (hφ : FTy.f32 = FTy.f32 ∨ FTy.f32 = FTy.bf16)
    (hacc : (0x00000000#32 : BitVec 32) = 0x00000000#32) (b : Fin 32) (r : Fin 2000) (k : Fin 32) :
    multiReduction (F := Ideal) .add [3] S32x2000x32 v 0x00000000#32 h hφ hacc (ix3 b r k) = ∑ j : Fin 3, v (ix4 b r k j) := by
  refine (Ideal.multiReduction_add_single v 0x00000000#32 h hφ hacc (ix3 b r k)).trans ?_
  show ∑ j : Fin 3, v (h.lift (ix3 b r k) j) = _
  exact Finset.sum_congr rfl fun j _ => congrArg v (lift1 h b r k j)

/-- The sum over the first axis of a [32,2000,32] array at (r, k). -/
theorem sum2 (v : FVec Ideal S32x2000x32 .f32) (h : S32x2000x32.Reduces [0] S2000x32) (hφ : FTy.f32 = FTy.f32 ∨ FTy.f32 = FTy.bf16)
    (hacc : (0x00000000#32 : BitVec 32) = 0x00000000#32) (r : Fin 2000) (k : Fin 32) :
    multiReduction (F := Ideal) .add [0] S2000x32 v 0x00000000#32 h hφ hacc (ix2 r k) = ∑ b : Fin 32, v (ix3 b r k) := by
  refine (Ideal.multiReduction_add_single v 0x00000000#32 h hφ hacc (ix2 r k)).trans ?_
  show ∑ b : Fin 32, v (h.lift (ix2 r k) b) = _
  exact Finset.sum_congr rfl fun b _ => congrArg v (lift2 h r k b)

/-- An integer comparison of vectors at an index compares the elements. -/
theorem cmpi_at {s : Shape} {w : Nat} (p : CmpIPredicate) (x y : IVec s w) (i : s.Idx) : cmpi p x y i = IntOp.cmpi p (x i) (y i) := rfl

/-- An exponential of a vector at an index is the element's. -/
theorem exp_at {s : Shape} {φ : FTy} (x : FVec Ideal s φ) (i : s.Idx) : exp x i = Ideal.exp (x i) := rfl

/-- A one-bit word widened to 32 bits and read as a signed integer is the bit. -/
theorem bit_toInt (c : BitVec 1) : (c.setWidth 32).toInt = (c.toNat : ℤ) := by
  rcases BitVec.eq_zero_or_eq_one c with h | h <;> subst h <;> decide

/-- The comparison bit, widened and converted, is the specification's mask. -/
theorem mask_eq (a : BitVec 32) :
    FloatOps.sitofp (F := Ideal) .f32 ((IntOp.cmpi .sge a 0#32).setWidth 32) = Cert.Spec.mask a := by
  show ((((IntOp.cmpi .sge a 0#32).setWidth 32).toInt : ℝ) : EReal) = (((IntOp.cmpi .sge a 0#32).toNat : ℝ) : EReal)
  rw [bit_toInt, Int.cast_natCast]

/-- The second body's stored value at (r, k) of its block: the weight of the edge from the block's row r to its k-th neighbour. -/
theorem pay1_apply (x0 : Vec Ideal S32x2000x3 .bf16) (x1 : Vec Ideal S32x2000x32x3 .bf16) (x2 : Vec Ideal S2000x32 .i32)
    (r : Fin 2000) (k : Fin 32) :
    (k1_pay1 (F := Ideal) x0 x1 x2) (ix2 r k)
      = Cert.Spec.wgt (fun b j => x0 (ix3 b r j)) (fun b j => x1 (ix4 b r k j)) (x2 (ix2 r k)) := by
  unfold k1_pay1 Cert.Spec.wgt
  simp only [mulf_apply, divf_apply, broadcast_apply, sitofp_apply, extui_apply, cmpi_at, mask_eq]
  rw [sum2]
  refine congrArg (fun s => Ideal.div s _ * _) (Finset.sum_congr rfl fun b _ => ?_)
  simp only [exp_at, divf_apply, subf_apply, broadcast_apply]
  rw [sum1]
  simp only [mulf_apply, subf_apply, extf_apply, bc_f, cast_f, shapeCast_self]
  rw [Ideal.ofBits_def, Ideal.ofBits_def, Ideal.ofBits_zero_f32, zero_sub]

end Cert.KernelIdeal.Pay

end
-- ==== Proof.Blocks0.lean ====
/-
  First launch: from what each grid point writes back to the whole feature array over the padded node axis.
  Each of the forty grid points writes back the node rows 1280 t … 1280 t + 1279 of the feature function; the forty
  blocks tile the 51200 padded rows, so after the launch the array is that function at every index.
-/
import proofs.«414107_j53626961658417_1_alg».proof.Proof.Payload
import proofs.«414107_j53626961658417_1_alg».proof.Proof.Gen.KernelIdeal.Frame

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat)

/-- Feature j of (padded) node n in batch row b, from the padded arrays. -/
def featPadAt (X : FVec Ideal S32x51200 .f32) (NE : FVec Ideal S51200x6 .f32) (W : FVec Ideal S3x6 .f32) (B : FVec Ideal S3 .f32)
    (bb : Fin 32) (n : Fin 51200) (j : Fin 3) : EReal :=
  Cert.Spec.mlp (X (ix2 bb n)) (fun e => NE (ix2 n e)) (fun e => W (ix2 j e)) (B (ix1 j))

/-- The feature array over the padded node axis. -/
def featPad (X : FVec Ideal S32x51200 .f32) (NE : FVec Ideal S51200x6 .f32) (W : FVec Ideal S3x6 .f32) (B : FVec Ideal S3 .f32) :
    FVec Ideal S32x51200x3 .bf16 :=
  fun i => featPadAt X NE W B (i 0) (i 1) (i 2)

variable (V : (c : Dev nD) → (b : Ref sig .tc) → Buf (Elt Ideal) ((c : Thread nD τ).loc b))

/-- Offsets inside a block: the body loads each input block and stores the output block whole, from offset zero. -/
private theorem offsets3 : (![0, 0, 0] : Fin 3 → Nat) = fun _ => 0 := funext fun a => by fin_cases a <;> rfl
private theorem offsets2 : (![0, 0] : Fin 2 → Nat) = fun _ => 0 := funext fun a => by fin_cases a <;> rfl
private theorem offsets1 : (![0] : Fin 1 → Nat) = fun _ => 0 := funext fun a => by fin_cases a <;> rfl

/-- Where each window's block sits at grid point t: block t along the node axis, block 0 along every other axis
    (the weights and the bias are one block each, the same at every point). -/
private theorem block_index0 : ∀ t : Fin cfg0.N,
    win0_0.index t (0 : Fin 2) = 0 ∧ win0_0.index t (1 : Fin 2) = t.val
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 3) = 0 ∧ win0_4.index t (1 : Fin 3) = t.val ∧ win0_4.index t (2 : Fin 3) = 0 :=
  (by decide +kernel : ∀ t : Fin grid0.N, _)

/-- Entry (b, r, j) of the value the body stores is the feature at array index i, as soon as the input blocks hold at
    (b, r), (r, e), (j, e) and (j) the arrays' entries at i's coordinates: row r of the block is node i 1 of the array. -/
private theorem stored_eq_feat (X : FVec Ideal S32x51200 .f32) (NE : FVec Ideal S51200x6 .f32) (W : FVec Ideal S3x6 .f32)
    (B : FVec Ideal S3 .f32)
    (x0 : Vec Ideal S32x1280 .f32) (x1 : Vec Ideal S1280x6 .f32) (x2 : Vec Ideal S3x6 .f32) (x3 : Vec Ideal S3 .f32)
    (b : Fin 32) (r : Fin 1280) (j : Fin 3) (i : S32x51200x3.Idx)
    (h0 : x0 (ix2 b r) = X (ix2 (i 0) (i 1)))
    (h1 : ∀ e : Fin 6, x1 (ix2 r e) = NE (ix2 (i 1) e))
    (h2 : ∀ e : Fin 6, x2 (ix2 j e) = W (ix2 (i 2) e))
    (h3 : x3 (ix1 j) = B (ix1 (i 2))) :
    k0_pay1 (F := Ideal) x0 x1 x2 x3 (ix3 b r j) = featPad X NE W B i := by
  rw [Pay.pay0_apply, h0, h3, funext h1, funext h2]
  rfl

/-- What grid point t writes back is block t of the feature array: node rows 1280 t … 1280 t + 1279. An entry of a
    block sits in its array at (block index × block size + coordinate inside the block) on each axis; on the node axis
    the two node-indexed inputs and the output share the block index t, and on every other axis all block indices are
    0, so each input block's entry is the array's entry at the output entry's own coordinates. -/
private theorem written_block0 (c : Dev nD) (t : Fin cfg0.N) :
    (dat0 V c).flushed 4 t = ((cfg0.win 4).blk t).view.read (Elt Ideal)
      (featPad (V c main_v0) (V c main_v1) (V c main_arg2) (V c main_arg3)) := by
  show (cfg0.win 4).cut (grid0.coords t) ((dat0 V c).after 4 t) = _
  rw [after0_4]
  unfold out0_4
  rw [View.canon_unit_zero offsets3]
  simp only [View.ld_unit_zero (S := S32x1280) offsets2, View.ld_unit_zero (S := S1280x6) offsets2,
    View.ld_unit_zero (S := S3x6) offsets2, View.ld_unit_zero (S := S3) offsets1]
  funext y
  obtain ⟨b, r, j, rfl⟩ : ∃ (b : Fin 32) (r : Fin 1280) (j : Fin 3), y = ix3 b r j :=
    ⟨y 0, y 1, y 2, eq_ix3 (n0 := 32) (n1 := 1280) (n2 := 3) y⟩
  obtain ⟨e00, e01, e10, e11, e20, e21, e30, e40, e41, e42⟩ := block_index0 t
  refine stored_eq_feat _ _ _ _ (iblk0 V c 0 t) (iblk0 V c 1 t) (iblk0 V c 2 t) (iblk0 V c 3 t) b r j
    (((cfg0.win 4).blk t).view.emb (ix3 b r j)) ?_ ?_ ?_ ?_
  · -- the scalar x[b, n]: batch row b, node row 1280 t + r
    have h : ((cfg0.win 0).blk t).view.emb (ix2 b r)
        = ix2 (((cfg0.win 4).blk t).view.emb (ix3 b r j) 0) (((cfg0.win 4).blk t).view.emb (ix3 b r j) 1) := by
      funext a; apply Fin.ext
      match a with
      | ⟨0, _⟩ => show win0_0.index t (0 : Fin 2) * 32 + 1 * b.val = win0_4.index t (0 : Fin 3) * 32 + 1 * b.val; omega
      | ⟨1, _⟩ => show win0_0.index t (1 : Fin 2) * 1280 + 1 * r.val = win0_4.index t (1 : Fin 3) * 1280 + 1 * r.val; omega
    show V c main_v0 (((cfg0.win 0).blk t).view.emb (ix2 b r)) = _
    rw [h]
    rfl
  · -- the embedding ne[n, e]: node row 1280 t + r, all six columns
    intro e
    have h : ((cfg0.win 1).blk t).view.emb (ix2 r e)
        = ix2 (((cfg0.win 4).blk t).view.emb (ix3 b r j) 1) e := by
      funext a; apply Fin.ext
      match a with
      | ⟨0, _⟩ => show win0_1.index t (0 : Fin 2) * 1280 + 1 * r.val = win0_4.index t (1 : Fin 3) * 1280 + 1 * r.val; omega
      | ⟨1, _⟩ => show win0_1.index t (1 : Fin 2) * 6 + 1 * e.val = e.val; omega
    show V c main_v1 (((cfg0.win 1).blk t).view.emb (ix2 r e)) = _
    rw [h]
    rfl
  · -- the weights w[j, e]: the one block is the whole array
    intro e
    have h : ((cfg0.win 2).blk t).view.emb (ix2 j e)
        = ix2 (((cfg0.win 4).blk t).view.emb (ix3 b r j) 2) e := by
      funext a; apply Fin.ext
      match a with
      | ⟨0, _⟩ => show win0_2.index t (0 : Fin 2) * 3 + 1 * j.val = win0_4.index t (2 : Fin 3) * 3 + 1 * j.val; omega
      | ⟨1, _⟩ => show win0_2.index t (1 : Fin 2) * 6 + 1 * e.val = e.val; omega
    show V c main_arg2 (((cfg0.win 2).blk t).view.emb (ix2 j e)) = _
    rw [h]
    rfl
  · -- the bias[j]: the one block is the whole array
    have h : ((cfg0.win 3).blk t).view.emb (ix1 j)
        = ix1 (((cfg0.win 4).blk t).view.emb (ix3 b r j) 2) := by
      funext a; apply Fin.ext
      match a with
      | ⟨0, _⟩ => show win0_3.index t (0 : Fin 1) * 3 + 1 * j.val = win0_4.index t (2 : Fin 3) * 3 + 1 * j.val; omega
    show V c main_arg3 (((cfg0.win 3).blk t).view.emb (ix1 j)) = _
    rw [h]
    rfl

/-- An index of the output array lies in point t's block iff each coordinate lies in the block's range on its axis. -/
private theorem mem_block0 (t : Fin cfg0.N) (i : S32x51200x3.Idx) :
    i ∈ ((cfg0.win 4).blk t).view.set ↔ ∀ a : Fin 3, win0_4.index t a * S32x1280x3.size a ≤ (i a).val
      ∧ (i a).val < win0_4.index t a * S32x1280x3.size a + S32x1280x3.size a := by
  show i ∈ ((View.whole main_v2).slice (win0_4.rect t)).set ↔ _
  rw [View.set_slice_whole, Rect.mem_set_unit]
  exact Iff.rfl

/-- The forty blocks tile the padded node axis, 51200 = 40 · 1280: index i lies in the block of point (i 1) / 1280,
    whose node rows are 1280 ((i 1) / 1280) … + 1279, and whose other two axes are whole. -/
private theorem blocks_cover0 (i : S32x51200x3.Idx) :
    ∃ t : Fin cfg0.N, (cfg0.win 4).flush t = true ∧ i ∈ ((cfg0.win 4).blk t).view.set := by
  have hi0 : (i 0).val < 32 := (i 0).isLt
  have hi1 : (i 1).val < 51200 := (i 1).isLt
  have hi2 : (i 2).val < 3 := (i 2).isLt
  have ht : (i 1).val / 1280 < cfg0.N := by show _ < 40; omega
  obtain ⟨-, -, -, -, -, -, -, e40, e41, e42⟩ := block_index0 ⟨(i 1).val / 1280, ht⟩
  refine ⟨⟨(i 1).val / 1280, ht⟩, flush0_4 _, ?_⟩
  rw [mem_block0]
  intro a
  match a with
  | ⟨0, _⟩ =>
    show win0_4.index ⟨(i 1).val / 1280, ht⟩ (0 : Fin 3) * 32 ≤ (i 0).val
      ∧ (i 0).val < win0_4.index ⟨(i 1).val / 1280, ht⟩ (0 : Fin 3) * 32 + 32
    omega
  | ⟨1, _⟩ =>
    show win0_4.index ⟨(i 1).val / 1280, ht⟩ (1 : Fin 3) * 1280 ≤ (i 1).val
      ∧ (i 1).val < win0_4.index ⟨(i 1).val / 1280, ht⟩ (1 : Fin 3) * 1280 + 1280
    have e41' : win0_4.index ⟨(i 1).val / 1280, ht⟩ (1 : Fin 3) = (i 1).val / 1280 := e41
    omega
  | ⟨2, _⟩ =>
    show win0_4.index ⟨(i 1).val / 1280, ht⟩ (2 : Fin 3) * 3 ≤ (i 2).val
      ∧ (i 2).val < win0_4.index ⟨(i 1).val / 1280, ht⟩ (2 : Fin 3) * 3 + 3
    omega

/-- After the first launch its output array is the feature array of the arrays the launch found. -/
theorem arr0 (c : Dev nD) :
    (dat0 V c).arrAt 4 cfg0.N = featPad (V c main_v0) (V c main_v1) (V c main_arg2) (V c main_arg3) := by
  exact (dat0 V c).arrAt_eq_of_cover 4 _ (fun t _ => written_block0 V c t) blocks_cover0

end Cert.KernelIdeal.Blocks

end
-- ==== Proof.Blocks1.lean ====
/-
  Second launch: from what each grid point writes back to the whole weight array.

  The launch runs over 25 grid points. Point t reads rows 2000 t … 2000 t + 1999 of the node axis of the feature
  array, of the gathered array and of the neighbour words, and writes the same rows of the output. An entry (r, k) of
  what it writes is the weight of the edge (2000 t + r, k); every node row n lies in the block of point n / 2000; so
  the output array ends as the weight array, index by index.
-/
import proofs.«414107_j53626961658417_1_alg».proof.Proof.Payload
import proofs.«414107_j53626961658417_1_alg».proof.Proof.Gen.KernelIdeal.Frame

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen
open Idealize.ShloMosaic.Pipeline (Dat)

/-- The weight of edge (n, k) from a feature array, a gathered array and the neighbour words. -/
def wgtAt (f : FVec Ideal S32x50000x3 .bf16) (g : FVec Ideal S32x50000x32x3 .bf16) (a : IVec S50000x32 32)
    (n : Fin 50000) (k : Fin 32) : EReal :=
  Cert.Spec.wgt (fun bb j => f (ix3 bb n j)) (fun bb j => g (ix4 bb n k j)) (a (ix2 n k))

/-- The weight array. -/
def wgtArr (f : FVec Ideal S32x50000x3 .bf16) (g : FVec Ideal S32x50000x32x3 .bf16) (a : IVec S50000x32 32) :
    FVec Ideal S50000x32 .f32 :=
  fun i => wgtAt f g a (i 0) (i 1)

variable (V : (c : Dev nD) → (b : Ref sig .tc) → Buf (Elt Ideal) ((c : Thread nD τ).loc b))

/-! ## The body's loads and its store start at the origin of their blocks -/

private theorem origin2 : (![0, 0] : Fin 2 → Nat) = fun _ => 0 := funext fun a => by fin_cases a <;> rfl
private theorem origin3 : (![0, 0, 0] : Fin 3 → Nat) = fun _ => 0 := funext fun a => by fin_cases a <;> rfl
private theorem origin4 : (![0, 0, 0, 0] : Fin 4 → Nat) = fun _ => 0 := funext fun a => by fin_cases a <;> rfl

/-! ## Where the blocks sit -/

/-- The four windows' block indices at grid point t, decided over the grid: t on the node axis, zero on every other
    axis; and the grid has 25 points. -/
private theorem index_at_point : ∀ t : Fin cfg1.N,
      win1_0.index t (0 : Fin 3) = 0 ∧ win1_0.index t (1 : Fin 3) = t.val ∧ win1_0.index t (2 : Fin 3) = 0
    ∧ win1_1.index t (0 : Fin 4) = 0 ∧ win1_1.index t (1 : Fin 4) = t.val ∧ win1_1.index t (2 : Fin 4) = 0
    ∧ win1_1.index t (3 : Fin 4) = 0
    ∧ win1_2.index t (0 : Fin 2) = t.val ∧ win1_2.index t (1 : Fin 2) = 0
    ∧ win1_3.index t (0 : Fin 2) = t.val ∧ win1_3.index t (1 : Fin 2) = 0
    ∧ t.val < 25 :=
  (by decide +kernel : ∀ t : Fin grid1.N, _)

/-! ## One entry of what the body stores -/

/-- When row r of the three loaded blocks is row n of the three arrays, entry (r, k) of the body's result is the
    weight of edge (n, k): the body's arithmetic at one index, with the blocks' rows replaced by the arrays'. -/
private theorem entry_eq_wgt (x0 : Vec Ideal S32x2000x3 .bf16) (x1 : Vec Ideal S32x2000x32x3 .bf16)
    (x2 : Vec Ideal S2000x32 .i32)
    (f : FVec Ideal S32x50000x3 .bf16) (g : FVec Ideal S32x50000x32x3 .bf16) (a : IVec S50000x32 32)
    (r : Fin 2000) (k : Fin 32) (n : Fin 50000)
    (h0 : ∀ b j, x0 (ix3 b r j) = f (ix3 b n j))
    (h1 : ∀ b j, x1 (ix4 b r k j) = g (ix4 b n k j))
    (h2 : x2 (ix2 r k) = a (ix2 n k)) :
    (k1_pay1 (F := Ideal) x0 x1 x2) (ix2 r k) = wgtArr f g a (ix2 n k) := by
  rw [Pay.pay1_apply]
  show _ = Cert.Spec.wgt (fun bb j => f (ix3 bb n j)) (fun bb j => g (ix4 bb n k j)) (a (ix2 n k))
  simp only [h0, h1, h2]

/-! ## Each input block is rows of its array

A block's coordinate in the array is, on every axis, the block index times the block's extent plus the coordinate
inside the block: on the node axis 2000 t + r, on the other axes the coordinate itself. -/

/-- Row r of the feature block at point t is row 2000 t + r of the feature array. -/
private theorem feat_row (c : Dev nD) (t : Fin cfg1.N) (b : Fin 32) (r : Fin 2000) (j : Fin 3) (n : Fin 50000)
    (hn : n.val = t.val * 2000 + r.val) :
    (iblk1 V c 0 t : Vec Ideal S32x2000x3 .bf16) (ix3 b r j)
      = (V c main_v3 : FVec Ideal S32x50000x3 .bf16) (ix3 b n j) := by
  obtain ⟨e0, e1, e2, -⟩ := index_at_point t
  unfold iblk1
  rw [View.read_apply]
  show V c main_v3 _ = V c main_v3 _
  refine congrArg (V c main_v3) ?_
  funext a; apply Fin.ext
  match a with
  | ⟨0, _⟩ => show win1_0.index t (0 : Fin 3) * 32 + 1 * b.val = b.val; rw [e0]; omega
  | ⟨1, _⟩ => show win1_0.index t (1 : Fin 3) * 2000 + 1 * r.val = n.val; rw [e1, hn]; omega
  | ⟨2, _⟩ => show win1_0.index t (2 : Fin 3) * 3 + 1 * j.val = j.val; rw [e2]; omega

/-- Row r of the gathered block at point t is row 2000 t + r of the gathered array. -/
private theorem gathered_row (c : Dev nD) (t : Fin cfg1.N) (b : Fin 32) (r : Fin 2000) (k : Fin 32) (j : Fin 3)
    (n : Fin 50000) (hn : n.val = t.val * 2000 + r.val) :
    (iblk1 V c 1 t : Vec Ideal S32x2000x32x3 .bf16) (ix4 b r k j)
      = (V c main_v10 : FVec Ideal S32x50000x32x3 .bf16) (ix4 b n k j) := by
  obtain ⟨-, -, -, e0, e1, e2, e3, -⟩ := index_at_point t
  unfold iblk1
  rw [View.read_apply]
  show V c main_v10 _ = V c main_v10 _
  refine congrArg (V c main_v10) ?_
  funext a; apply Fin.ext
  match a with
  | ⟨0, _⟩ => show win1_1.index t (0 : Fin 4) * 32 + 1 * b.val = b.val; rw [e0]; omega
  | ⟨1, _⟩ => show win1_1.index t (1 : Fin 4) * 2000 + 1 * r.val = n.val; rw [e1, hn]; omega
  | ⟨2, _⟩ => show win1_1.index t (2 : Fin 4) * 32 + 1 * k.val = k.val; rw [e2]; omega
  | ⟨3, _⟩ => show win1_1.index t (3 : Fin 4) * 3 + 1 * j.val = j.val; rw [e3]; omega

/-- Row r of the neighbour-word block at point t is row 2000 t + r of the neighbour words. -/
private theorem word_row (c : Dev nD) (t : Fin cfg1.N) (r : Fin 2000) (k : Fin 32) (n : Fin 50000)
    (hn : n.val = t.val * 2000 + r.val) :
    (iblk1 V c 2 t : Vec Ideal S2000x32 .i32) (ix2 r k) = (V c main_arg4 : IVec S50000x32 32) (ix2 n k) := by
  obtain ⟨-, -, -, -, -, -, -, e0, e1, -⟩ := index_at_point t
  unfold iblk1
  rw [View.read_apply]
  show V c main_arg4 _ = V c main_arg4 _
  refine congrArg (V c main_arg4) ?_
  funext a; apply Fin.ext
  match a with
  | ⟨0, _⟩ => show win1_2.index t (0 : Fin 2) * 2000 + 1 * r.val = n.val; rw [e0, hn]; omega
  | ⟨1, _⟩ => show win1_2.index t (1 : Fin 2) * 32 + 1 * k.val = k.val; rw [e1]; omega

/-! ## What a point writes back -/

/-- What grid point t writes back is block t of the weight array of the arrays the launch found: the body's one
    store covers its block and holds the body's result of the three loaded blocks; entry (r, k) of it is the weight
    of edge (2000 t + r, k), which is where entry (r, k) of the output block sits in the output array. -/
private theorem written_at_point (c : Dev nD) (t : Fin cfg1.N) :
    (dat1 V c).flushed 3 t
      = ((cfg1.win 3).blk t).view.read (Elt Ideal) (wgtArr (V c main_v3) (V c main_v10) (V c main_arg4)) := by
  show (cfg1.win 3).cut (grid1.coords t) ((dat1 V c).after 3 t) = _
  rw [after1_3]
  unfold out1_3
  rw [View.canon_unit_zero origin2]
  simp only [View.ld_unit_zero (S := S32x2000x3) origin3, View.ld_unit_zero (S := S32x2000x32x3) origin4,
    View.ld_unit_zero (S := S2000x32) origin2]
  obtain ⟨-, -, -, -, -, -, -, -, -, e0, e1, hN⟩ := index_at_point t
  funext y
  obtain ⟨r, k, rfl⟩ : ∃ (r : Fin 2000) (k : Fin 32), y = ix2 r k := ⟨y 0, y 1, eq_ix2 y⟩
  have hr : r.val < 2000 := r.isLt
  have hlt : t.val * 2000 + r.val < 50000 := by omega
  show (k1_pay1 (F := Ideal) (iblk1 V c 0 t) (iblk1 V c 1 t) (iblk1 V c 2 t)) (ix2 r k)
    = wgtArr (V c main_v3) (V c main_v10) (V c main_arg4) (((cfg1.win 3).blk t).view.emb (ix2 r k))
  have hemb : ((cfg1.win 3).blk t).view.emb (ix2 r k)
      = (ix2 (⟨t.val * 2000 + r.val, hlt⟩ : Fin 50000) k : S50000x32.Idx) := by
    funext a; apply Fin.ext
    match a with
    | ⟨0, _⟩ => show win1_3.index t (0 : Fin 2) * 2000 + 1 * r.val = t.val * 2000 + r.val; rw [e0]; omega
    | ⟨1, _⟩ => show win1_3.index t (1 : Fin 2) * 32 + 1 * k.val = k.val; rw [e1]; omega
  rw [hemb]
  exact entry_eq_wgt _ _ _ _ _ _ r k ⟨t.val * 2000 + r.val, hlt⟩
    (fun b j => feat_row V c t b r j _ rfl) (fun b j => gathered_row V c t b r k j _ rfl) (word_row V c t r k _ rfl)

/-! ## The blocks cover the array -/

/-- An index of the output array is in point t's block iff each coordinate is in the block's range on its axis. -/
private theorem mem_block_iff (t : Fin cfg1.N) (i : S50000x32.Idx) :
    i ∈ ((cfg1.win 3).blk t).view.set ↔ ∀ a : Fin 2, win1_3.index t a * S2000x32.size a ≤ (i a).val
      ∧ (i a).val < win1_3.index t a * S2000x32.size a + S2000x32.size a := by
  show i ∈ ((View.whole main_v11).slice (win1_3.rect t)).set ↔ _
  rw [View.set_slice_whole, Rect.mem_set_unit]
  exact Iff.rfl

/-- Every index of the output array is in the block of a point that writes back: node row n is in the block of
    point n / 2000, since 2000 (n / 2000) ≤ n < 2000 (n / 2000) + 2000 and n / 2000 < 25 for n < 50000. -/
private theorem every_index_covered (i : S50000x32.Idx) :
    ∃ t : Fin cfg1.N, (cfg1.win 3).flush t = true ∧ i ∈ ((cfg1.win 3).blk t).view.set := by
  have hi0 : (i 0).val < 50000 := (i 0).isLt
  have hi1 : (i 1).val < 32 := (i 1).isLt
  obtain ⟨t, ht⟩ : ∃ t : Fin cfg1.N, t.val = (i 0).val / 2000 :=
    ⟨⟨(i 0).val / 2000, by show (i 0).val / 2000 < 25; omega⟩, rfl⟩
  obtain ⟨-, -, -, -, -, -, -, -, -, e0, e1, -⟩ := index_at_point t
  refine ⟨t, flush1_3 t, ?_⟩
  rw [mem_block_iff]
  intro a
  match a with
  | ⟨0, _⟩ =>
    show win1_3.index t (0 : Fin 2) * 2000 ≤ (i 0).val ∧ (i 0).val < win1_3.index t (0 : Fin 2) * 2000 + 2000
    rw [e0, ht]; omega
  | ⟨1, _⟩ =>
    show win1_3.index t (1 : Fin 2) * 32 ≤ (i 1).val ∧ (i 1).val < win1_3.index t (1 : Fin 2) * 32 + 32
    rw [e1]; omega

/-- After the second launch its output array is the weight array of the arrays the launch found. -/
theorem arr1 (c : Dev nD) :
    (dat1 V c).arrAt 3 cfg1.N = wgtArr (V c main_v3) (V c main_v10) (V c main_arg4) :=
  (dat1 V c).arrAt_eq_of_cover 3 _ (fun t _ => written_at_point V c t) every_index_covered

end Cert.KernelIdeal.Blocks

end
-- ==== Proof.KernelValue.lean ====
/-
  The kernel program, run: every execution ends with the result buffer at the specification's weight array
  of the argument arrays, the arguments unchanged.

  The run ends with the result buffer at what the second launch's write-backs leave (Proof/KernelRun.lean), which is the
  weight array of the three arrays that launch found (Proof/Blocks1.lean). Of those, the neighbour words are the argument
  itself; the feature array is the first 50000 node rows of what the first launch left; and the gathered array is the
  gather of those rows at the wrapped neighbour words. What the first launch left is the feature array over the node
  axis padded to 51200 rows (Proof/Blocks0.lean) of the two padded arguments — and a padded array read below row 50000
  is the argument there, so its first 50000 node rows are the specification's features, whatever the padding holds.
-/
import proofs.«414107_j53626961658417_1_alg».proof.Proof.Spec
import proofs.«414107_j53626961658417_1_alg».proof.Proof.Blocks0
import proofs.«414107_j53626961658417_1_alg».proof.Proof.Blocks1
import proofs.«414107_j53626961658417_1_alg».proof.Proof.KernelRun
import Idealize.ShloMosaic.Lib.StableHlo.Run
import Idealize.ShloMosaic.Lib.KernelVsHost
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.KernelIdeal.Blocks

/-- The start indices the gather reads: a negative neighbour word wrapped by the node count, laid out as a column. -/
def startIdx (a : IVec S50000x32 32) : IVec S50000x32x1 32 :=
  broadcastInDim S50000x32x1 ![0, 1] bcast_S50000x32_S50000x32x1_0_1
    (select (cmpi .slt a (broadcastInDim S50000x32 ![] bcast_S_S50000x32 (constantI S_ 32 0#32)))
      (addi a (broadcastInDim S50000x32 ![] bcast_S_S50000x32 (constantI S_ 32 50000#32))) a)

/-- The gather of the neighbours' feature rows. -/
def gath (a : IVec S50000x32 32) (f : FVec Ideal Cert.Spec.SF .f32) : FVec Ideal Cert.Spec.SG .f32 :=
  Host.gather gather_S32x50000x3_S50000x32x1_S32x50000x32x3_03_1_n_n_1_2_3213 f (startIdx a)

/-! ## The host operations before the first launch, read at the buffers it stages -/

section Before
variable (X : Valuation τ sig (Elt Ideal))

/-- The four stretches before the first launch, folded over any contents. -/
abbrev before0 : Valuation τ sig (Elt Ideal) :=
  StableHlo.after hostOps0_3 (StableHlo.after hostOps0_2 (StableHlo.after hostOps0_1 (StableHlo.after hostOps0 X)))

theorem before0_v0 : before0 X (Proc.devRef .tc main_v0)
    = pad S32x51200 ![0, 0] ![0, 1200] ![0, 0] (X (Proc.devRef .tc main_arg0)) (sitofp (F := Ideal) .f32 (constantI S_ 32 0#32))
        pads_S32x50000_S32x51200_000_012000 h_S_ := by
  after_results
  rfl

theorem before0_v1 : before0 X (Proc.devRef .tc main_v1)
    = pad S51200x6 ![0, 0] ![1200, 0] ![0, 0] (X (Proc.devRef .tc main_arg1)) (sitofp (F := Ideal) .f32 (constantI S_ 32 0#32))
        pads_S50000x6_S51200x6_012000_000 h_S_ := by
  after_results
  rfl

theorem before0_arg2 : before0 X (Proc.devRef .tc main_arg2) = X (Proc.devRef .tc main_arg2) := by
  after_results

theorem before0_arg3 : before0 X (Proc.devRef .tc main_arg3) = X (Proc.devRef .tc main_arg3) := by
  after_results

theorem before0_arg4 : before0 X (Proc.devRef .tc main_arg4) = X (Proc.devRef .tc main_arg4) := by
  after_results

end Before

/-! ## The host operations between the launches, read at the buffers the second launch stages -/

section Between
variable (X : Valuation τ sig (Elt Ideal))

theorem between_v3 : StableHlo.after hostOps1 X (Proc.devRef .tc main_v3)
    = extractStridedSlice S32x50000x3 ![0, 0, 0] (X (Proc.devRef .tc main_v2)) slices_S32x51200x3_S32x50000x3_0_0_0 := by
  after_results

theorem between_v10 : StableHlo.after hostOps1 X (Proc.devRef .tc main_v10)
    = Host.gather gather_S32x50000x3_S50000x32x1_S32x50000x32x3_03_1_n_n_1_2_3213
        (extractStridedSlice S32x50000x3 ![0, 0, 0] (X (Proc.devRef .tc main_v2)) slices_S32x51200x3_S32x50000x3_0_0_0)
        (startIdx (X (Proc.devRef .tc main_arg4))) := by
  after_results
  rfl

theorem between_arg4 : StableHlo.after hostOps1 X (Proc.devRef .tc main_arg4) = X (Proc.devRef .tc main_arg4) := by
  after_results

end Between

/-! ## The first 50000 node rows of the padded feature array -/

/-- A padded array read below its operand's extent is the operand there, so the features of the first 50000 nodes do
    not see the padding: they are the specification's features of the two arguments. -/
theorem slice_featPad (x : FVec Ideal S32x50000 .f32) (ne : FVec Ideal S50000x6 .f32) (w : FVec Ideal S3x6 .f32)
    (b : FVec Ideal S3 .f32) (v v' : FVec Ideal S_ .f32) :
    extractStridedSlice S32x50000x3 ![0, 0, 0]
        (featPad (pad S32x51200 ![0, 0] ![0, 1200] ![0, 0] x v pads_S32x50000_S32x51200_000_012000 h_S_)
          (pad S51200x6 ![0, 0] ![1200, 0] ![0, 0] ne v' pads_S50000x6_S51200x6_012000_000 h_S_) w b)
        slices_S32x51200x3_S32x50000x3_0_0_0
      = Cert.Spec.feat x ne w b := by
  funext i
  obtain ⟨bb, n, j, rfl⟩ : ∃ (bb : Fin 32) (n : Fin 50000) (j : Fin 3), i = ix3 bb n j := ⟨i 0, i 1, i 2, eq_ix3 i⟩
  have hn : n.val < 51200 := by have := n.isLt; omega
  rw [extractStridedSlice_apply ![0, 0, 0] _ slices_S32x51200x3_S32x50000x3_0_0_0 (ix3 bb n j) (ix3 bb ⟨n.val, hn⟩ j)
    (fun a => by
      match a with
      | ⟨0, _⟩ => show bb.val = 0 + bb.val; omega
      | ⟨1, _⟩ => show n.val = 0 + n.val; omega
      | ⟨2, _⟩ => show j.val = 0 + j.val; omega)]
  show featPadAt _ _ w b bb ⟨n.val, hn⟩ j = Cert.Spec.featAt x ne w b bb n j
  unfold featPadAt Cert.Spec.featAt
  have hx : pad S32x51200 ![0, 0] ![0, 1200] ![0, 0] x v pads_S32x50000_S32x51200_000_012000 h_S_ (ix2 bb ⟨n.val, hn⟩)
      = x (ix2 bb n) :=
    pad_apply_of_inside _ _ _ x v _ _ _ (ix2 bb n) (fun a => by
      match a with
      | ⟨0, _⟩ => show bb.val = 0 + bb.val * (0 + 1); omega
      | ⟨1, _⟩ => show n.val = 0 + n.val * (0 + 1); omega)
  have hne : ∀ e : Fin 6, pad S51200x6 ![0, 0] ![1200, 0] ![0, 0] ne v' pads_S50000x6_S51200x6_012000_000 h_S_ (ix2 ⟨n.val, hn⟩ e)
      = ne (ix2 n e) := fun e =>
    pad_apply_of_inside _ _ _ ne v' _ _ _ (ix2 n e) (fun a => by
      match a with
      | ⟨0, _⟩ => show n.val = 0 + n.val * (0 + 1); omega
      | ⟨1, _⟩ => show e.val = 0 + e.val * (0 + 1); omega)
  rw [hx]
  simp only [hne]

/-- The weight array over the specification's features and their gather is the specification's result. -/
theorem wgtArr_feat (x : FVec Ideal S32x50000 .f32) (ne : FVec Ideal S50000x6 .f32) (w : FVec Ideal S3x6 .f32)
    (b : FVec Ideal S3 .f32) (a : IVec S50000x32 32) :
    wgtArr (Cert.Spec.feat x ne w b)
        (Host.gather gather_S32x50000x3_S50000x32x1_S32x50000x32x3_03_1_n_n_1_2_3213 (Cert.Spec.feat x ne w b) (startIdx a)) a
      = Cert.Spec.result (gath a) x ne w b a := rfl

/-! ## The result buffer after the run -/

section Result
variable (m : (ℓ : Loc nD τ sig) → Buf (Elt Ideal) ℓ) (ρ : Dev nD → PrngReg)

/-- What the first launch left in its output array: the padded feature array of the padded arguments. -/
theorem first_out (c : Dev nD) : W5 m ρ c (Proc.devRef .tc main_v2)
    = featPad
        (pad S32x51200 ![0, 0] ![0, 1200] ![0, 0] (m ((c.tc : Thread nD τ).loc main_arg0)) (sitofp (F := Ideal) .f32 (constantI S_ 32 0#32))
          pads_S32x50000_S32x51200_000_012000 h_S_)
        (pad S51200x6 ![0, 0] ![1200, 0] ![0, 0] (m ((c.tc : Thread nD τ).loc main_arg1)) (sitofp (F := Ideal) .f32 (constantI S_ 32 0#32))
          pads_S50000x6_S51200x6_012000_000 h_S_)
        (m ((c.tc : Thread nD τ).loc main_arg2)) (m ((c.tc : Thread nD τ).loc main_arg3)) := by
  refine (W5_arr m ρ c 4).trans ((arr0 (V4 m ρ) c).trans ?_)
  show featPad (before0 (W0 m ρ c) (Proc.devRef .tc main_v0)) (before0 (W0 m ρ c) (Proc.devRef .tc main_v1))
      (before0 (W0 m ρ c) (Proc.devRef .tc main_arg2)) (before0 (W0 m ρ c) (Proc.devRef .tc main_arg3)) = _
  rw [before0_v0, before0_v1, before0_arg2, before0_arg3]

/-- The neighbour words reach the second launch untouched. -/
theorem words_kept (c : Dev nD) : W5 m ρ c (Proc.devRef .tc main_arg4) = m ((c.tc : Thread nD τ).loc main_arg4) :=
  (W5_of_ne m ρ c main_arg4 (by decide)).trans (before0_arg4 (W0 m ρ c))

/-- The result buffer at the last boundary is the specification's weight array of the arguments. -/
theorem result_eq (c : Dev nD) : W7 m ρ c (Proc.devRef .tc main_v11)
    = Cert.Spec.result (gath (m ((c.tc : Thread nD τ).loc main_arg4)))
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  refine (W7_arr m ρ c 3).trans ((arr1 (V6 m ρ) c).trans ?_)
  show wgtArr (StableHlo.after hostOps1 (W5 m ρ c) (Proc.devRef .tc main_v3))
      (StableHlo.after hostOps1 (W5 m ρ c) (Proc.devRef .tc main_v10))
      (StableHlo.after hostOps1 (W5 m ρ c) (Proc.devRef .tc main_arg4)) = _
  rw [between_v3, between_v10, between_arg4, first_out, words_kept, slice_featPad]
  exact wgtArr_feat _ _ _ _ _

/-- Every weakly fair execution of the kernel program ends with its result at the specification and its arguments as launched. -/
theorem run :
    θ_run defs (onTc (τ := τ) (main (F := Ideal))) ⟨m, fun _ => 0, ρ⟩ fun r => ∀ c : Dev nD,
      r.2.mem ((c.tc : Thread nD τ).loc main_v11)
        = Cert.Spec.result (gath (m ((c.tc : Thread nD τ).loc main_arg4)))
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq m ρ c), (h c).2⟩) (run_named m ρ)

end Result

end Cert.KernelIdeal.Hand

end
-- ==== Proof.RefTerm.lean ====
/-
  The reference's straight line of array operations, composed into one term of its five arguments.

  First the feature array: the scalar feature and the embedding broadcast to [32, 50000, 6] and added, contracted with
  the weights over the six embedding coordinates, the bias added, the leaky-ReLU taken as a select between the value
  and the slope's word times it. Then the weights: the features of each node beside its gathered neighbours' features,
  the squared differences summed over the three features, negated, divided by one, exponentiated, summed over the batch
  rows, divided by thirty-two, and multiplied by the neighbour word's sign mask.
-/
import proofs.«414107_j53626961658417_1_alg».proof.Proof.Spec
import proofs.«414107_j53626961658417_1_alg».proof.Proof.Gen.ReferenceIdeal

noncomputable section

namespace Cert.ReferenceIdeal.Hand

open Cert.ReferenceIdeal Cert.ReferenceIdeal.Gen Idealize.ShloMosaic

/-- The start indices the gather reads: a negative neighbour word wrapped by the node count, laid out as a column. -/
def startIdx (a : IVec S50000x32 32) : IVec S50000x32x1 32 :=
  broadcastInDim S50000x32x1 ![0, 1] bcast_S50000x32_S50000x32x1_0_1
    (select (cmpi .slt a (broadcastInDim S50000x32 ![] bcast_S_S50000x32 (constantI S_ 32 0#32)))
      (addi a (broadcastInDim S50000x32 ![] bcast_S_S50000x32 (constantI S_ 32 50000#32))) a)

/-- The gather of the neighbours' feature rows. -/
def gath (a : IVec S50000x32 32) (f : FVec Ideal Cert.Spec.SF .f32) : FVec Ideal Cert.Spec.SG .f32 :=
  Host.gather gather_S32x50000x3_S50000x32x1_S32x50000x32x3_03_1_n_n_1_2_3213 f (startIdx a)

/-- The layer before its activation: (x + ne) contracted with the weights, plus the bias. -/
def refPre (x : FVec Ideal S32x50000 .f32) (ne : FVec Ideal S50000x6 .f32) (w : FVec Ideal S3x6 .f32) (b : FVec Ideal S3 .f32) :
    FVec Ideal S32x50000x3 .f32 :=
  addf
    (Host.dotGeneral dot_S32x50000x6_S3x6_S32x50000x3_2_1_01_0_n_n none
      (addf
        (broadcastInDim S32x50000x6 ![0, 1, 2] bcast_S32x50000x1_S32x50000x6_0_1_2
          (broadcastInDim S32x50000x1 ![0, 1] bcast_S32x50000_S32x50000x1_0_1 x))
        (broadcastInDim S32x50000x6 ![0, 1, 2] bcast_S1x50000x6_S32x50000x6_0_1_2
          (broadcastInDim S1x50000x6 ![1, 2] bcast_S50000x6_S1x50000x6_1_2 ne)))
      w)
    (broadcastInDim S32x50000x3 ![0, 1, 2] bcast_S1x1x3_S32x50000x3_0_1_2
      (broadcastInDim S1x1x3 ![2] bcast_S3_S1x1x3_2 b))

/-- The feature array: the activation of `refPre`. -/
def refFeat (x : FVec Ideal S32x50000 .f32) (ne : FVec Ideal S50000x6 .f32) (w : FVec Ideal S3x6 .f32) (b : FVec Ideal S3 .f32) :
    FVec Ideal S32x50000x3 .f32 :=
  select
    (cmpf .oge (refPre x ne w b)
      (broadcastInDim S32x50000x3 ![] bcast_S_S32x50000x3 (constant (F := Ideal) S_ .f32 0x00000000#32)))
    (refPre x ne w b)
    (mulf (broadcastInDim S32x50000x3 ![] bcast_S_S32x50000x3 (id (constant (F := Ideal) S_ .f32 0x3E4CCCCD#32)))
      (refPre x ne w b))

/-- A node's features beside its gathered neighbours': the difference array. -/
def refDiff (f : FVec Ideal S32x50000x3 .f32) (a : IVec S50000x32 32) : FVec Ideal S32x50000x32x3 .f32 :=
  subf
    (broadcastInDim S32x50000x32x3 ![0, 1, 2, 3] bcast_S32x50000x1x3_S32x50000x32x3_0_1_2_3
      (broadcastInDim S32x50000x1x3 ![0, 1, 3] bcast_S32x50000x3_S32x50000x1x3_0_1_3 f))
    (Host.gather gather_S32x50000x3_S50000x32x1_S32x50000x32x3_03_1_n_n_1_2_3213 f (startIdx a))

/-- The weight array from the feature array and the neighbour words. -/
def refTail (f : FVec Ideal S32x50000x3 .f32) (a : IVec S50000x32 32) : FVec Ideal S50000x32 .f32 :=
  mulf
    (Host.divf
      (Host.reduceAdd
        (Host.exp
          (Host.divf
            (Host.negf
              (Host.reduceAdd (mulf (refDiff f a) (refDiff f a)) (constant (F := Ideal) S_ .f32 0x00000000#32)
                reducesTo_S32x50000x32x3_S32x50000x32_d3 h_S_))
            (broadcastInDim S32x50000x32 ![] bcast_S_S32x50000x32 (constant (F := Ideal) S_ .f32 0x3F800000#32))))
        (constant (F := Ideal) S_ .f32 0x00000000#32) reducesTo_S32x50000x32_S50000x32_d0 h_S_)
      (broadcastInDim S50000x32 ![] bcast_S_S50000x32 (constant (F := Ideal) S_ .f32 0x42000000#32)))
    (uitofp .f32 (cmpi .sge a (broadcastInDim S50000x32 ![] bcast_S_S50000x32 (constantI S_ 32 0#32))))

/-- The reference's result as one term of its arguments. -/
def refTerm (x : FVec Ideal S32x50000 .f32) (ne : FVec Ideal S50000x6 .f32) (w : FVec Ideal S3x6 .f32) (b : FVec Ideal S3 .f32)
    (a : IVec S50000x32 32) : FVec Ideal S50000x32 .f32 :=
  refTail (refFeat x ne w b) a

end Cert.ReferenceIdeal.Hand

end
-- ==== Proof.RefRun.lean ====
/-
  The reference program as a straight line of array operations, and its run: every execution ends with the result
  buffer at the operations' composed term of the argument arrays, the arguments unchanged.

  The program calls the leaky-ReLU function, which calls the select function; unfolding both at their calls leaves
  forty-seven operations in a row: ten before the call (the last the slope's word), the activation's seven over the
  call's own buffers (zero, its broadcast, the comparison, the slope converted to its own type, its broadcast, the
  product, the select), and thirty after. The fold of those operations over any contents of the buffers, read at the
  result buffer, is the composed term by unfolding the definitions; read at an argument buffer it is what was there.
-/
import proofs.«414107_j53626961658417_1_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

section Line

variable {F : FTy → Type} [FloatOps F]

/-- The program's forty-seven operations in order, the two called functions' operations at their call sites over the
    calls' own buffers. -/
abbrev ops : List (HloOp τ sig (Elt F)) :=
  [ StableHlo.unary main_arg0 main_v0 (broadcastInDim S32x50000x1 ![0, 1] bcast_S32x50000_S32x50000x1_0_1 : (⟨S32x50000, .f32⟩ : BufTy).Contents (Elt F) → (⟨S32x50000x1, .f32⟩ : BufTy).Contents (Elt F)),
    StableHlo.unary main_arg1 main_v1 (broadcastInDim S1x50000x6 ![1, 2] bcast_S50000x6_S1x50000x6_1_2 : (⟨S50000x6, .f32⟩ : BufTy).Contents (Elt F) → (⟨S1x50000x6, .f32⟩ : BufTy).Contents (Elt F)),
    StableHlo.unary main_v0 main_v2 (broadcastInDim S32x50000x6 ![0, 1, 2] bcast_S32x50000x1_S32x50000x6_0_1_2 : (⟨S32x50000x1, .f32⟩ : BufTy).Contents (Elt F) → (⟨S32x50000x6, .f32⟩ : BufTy).Contents (Elt F)),
    StableHlo.unary main_v1 main_v3 (broadcastInDim S32x50000x6 ![0, 1, 2] bcast_S1x50000x6_S32x50000x6_0_1_2 : (⟨S1x50000x6, .f32⟩ : BufTy).Contents (Elt F) → (⟨S32x50000x6, .f32⟩ : BufTy).Contents (Elt F)),
    StableHlo.binary main_v2 main_v3 main_v4 (addf : (⟨S32x50000x6, .f32⟩ : BufTy).Contents (Elt F) → (⟨S32x50000x6, .f32⟩ : BufTy).Contents (Elt F) → (⟨S32x50000x6, .f32⟩ : BufTy).Contents (Elt F)),
    StableHlo.binary main_v4 main_arg2 main_v5 ((fun l r => Host.dotGeneral dot_S32x50000x6_S3x6_S32x50000x3_2_1_01_0_n_n none l r) : (⟨S32x50000x6, .f32⟩ : BufTy).Contents (Elt F) → (⟨S3x6, .f32⟩ : BufTy).Contents (Elt F) → (⟨S32x50000x3, .f32⟩ : BufTy).Contents (Elt F)),
    StableHlo.unary main_arg3 main_v6 (broadcastInDim S1x1x3 ![2] bcast_S3_S1x1x3_2 : (⟨S3, .f32⟩ : BufTy).Contents (Elt F) → (⟨S1x1x3, .f32⟩ : BufTy).Contents (Elt F)),
    StableHlo.unary main_v6 main_v7 (broadcastInDim S32x50000x3 ![0, 1, 2] bcast_S1x1x3_S32x50000x3_0_1_2 : (⟨S1x1x3, .f32⟩ : BufTy).Contents (Elt F) → (⟨S32x50000x3, .f32⟩ : BufTy).Contents (Elt F)),
    StableHlo.binary main_v5 main_v7 main_v8 (addf : (⟨S32x50000x3, .f32⟩ : BufTy).Contents (Elt F) → (⟨S32x50000x3, .f32⟩ : BufTy).Contents (Elt F) → (⟨S32x50000x3, .f32⟩ : BufTy).Contents (Elt F)),
    StableHlo.nullary main_cst (constant S_ .f32 0x3E4CCCCD#32),
    TRef.nullary main_call0.cst (constant S_ .f32 0x00000000#32),
    TRef.unary main_call0.cst main_call0.v0 (broadcastInDim S32x50000x3 ![] bcast_S_S32x50000x3),
    TRef.binary (.of main_v8) main_call0.v0 main_call0.v1 (cmpf .oge),
    TRef.unary (.of main_cst) main_call0.v2 id,
    TRef.unary main_call0.v2 main_call0.v3 (broadcastInDim S32x50000x3 ![] bcast_S_S32x50000x3),
    TRef.binary main_call0.v3 (.of main_v8) main_call0.v4 mulf,
    TRef.ternary main_call0.v1 (.of main_v8) main_call0.v4 main_call0.call0.v0 select,
    StableHlo.nullary main_c (constantI S_ 32 0#32),
    StableHlo.unary main_c main_v10 (broadcastInDim S50000x32 ![] bcast_S_S50000x32 : (⟨S_, .i32⟩ : BufTy).Contents (Elt F) → (⟨S50000x32, .i32⟩ : BufTy).Contents (Elt F)),
    StableHlo.binary main_arg4 main_v10 main_v11 (cmpi .slt : (⟨S50000x32, .i32⟩ : BufTy).Contents (Elt F) → (⟨S50000x32, .i32⟩ : BufTy).Contents (Elt F) → (⟨S50000x32, .i1⟩ : BufTy).Contents (Elt F)),
    StableHlo.nullary main_c_0 (constantI S_ 32 50000#32),
    StableHlo.unary main_c_0 main_v12 (broadcastInDim S50000x32 ![] bcast_S_S50000x32 : (⟨S_, .i32⟩ : BufTy).Contents (Elt F) → (⟨S50000x32, .i32⟩ : BufTy).Contents (Elt F)),
    StableHlo.binary main_arg4 main_v12 main_v13 (addi : (⟨S50000x32, .i32⟩ : BufTy).Contents (Elt F) → (⟨S50000x32, .i32⟩ : BufTy).Contents (Elt F) → (⟨S50000x32, .i32⟩ : BufTy).Contents (Elt F)),
    StableHlo.ternary main_v11 main_v13 main_arg4 main_v14 (select : (⟨S50000x32, .i1⟩ : BufTy).Contents (Elt F) → (⟨S50000x32, .i32⟩ : BufTy).Contents (Elt F) → (⟨S50000x32, .i32⟩ : BufTy).Contents (Elt F) → (⟨S50000x32, .i32⟩ : BufTy).Contents (Elt F)),
    StableHlo.unary main_v14 main_v15 (broadcastInDim S50000x32x1 ![0, 1] bcast_S50000x32_S50000x32x1_0_1 : (⟨S50000x32, .i32⟩ : BufTy).Contents (Elt F) → (⟨S50000x32x1, .i32⟩ : BufTy).Contents (Elt F)),
    StableHlo.binary main_v9 main_v15 main_v16 ((fun x i => Host.gather gather_S32x50000x3_S50000x32x1_S32x50000x32x3_03_1_n_n_1_2_3213 x i) : (⟨S32x50000x3, .f32⟩ : BufTy).Contents (Elt F) → (⟨S50000x32x1, .i32⟩ : BufTy).Contents (Elt F) → (⟨S32x50000x32x3, .f32⟩ : BufTy).Contents (Elt F)),
    StableHlo.unary main_v9 main_v17 (broadcastInDim S32x50000x1x3 ![0, 1, 3] bcast_S32x50000x3_S32x50000x1x3_0_1_3 : (⟨S32x50000x3, .f32⟩ : BufTy).Contents (Elt F) → (⟨S32x50000x1x3, .f32⟩ : BufTy).Contents (Elt F)),
    StableHlo.unary main_v17 main_v18 (broadcastInDim S32x50000x32x3 ![0, 1, 2, 3] bcast_S32x50000x1x3_S32x50000x32x3_0_1_2_3 : (⟨S32x50000x1x3, .f32⟩ : BufTy).Contents (Elt F) → (⟨S32x50000x32x3, .f32⟩ : BufTy).Contents (Elt F)),
    StableHlo.binary main_v18 main_v16 main_v19 (subf : (⟨S32x50000x32x3, .f32⟩ : BufTy).Contents (Elt F) → (⟨S32x50000x32x3, .f32⟩ : BufTy).Contents (Elt F) → (⟨S32x50000x32x3, .f32⟩ : BufTy).Contents (Elt F)),
    StableHlo.binary main_v19 main_v19 main_v20 (mulf : (⟨S32x50000x32x3, .f32⟩ : BufTy).Contents (Elt F) → (⟨S32x50000x32x3, .f32⟩ : BufTy).Contents (Elt F) → (⟨S32x50000x32x3, .f32⟩ : BufTy).Contents (Elt F)),
    StableHlo.nullary main_cst_1 (constant S_ .f32 0x00000000#32),
    StableHlo.binary main_v20 main_cst_1 main_v21 ((fun x v => Host.reduceAdd x v reducesTo_S32x50000x32x3_S32x50000x32_d3 h_S_) : (⟨S32x50000x32x3, .f32⟩ : BufTy).Contents (Elt F) → (⟨S_, .f32⟩ : BufTy).Contents (Elt F) → (⟨S32x50000x32, .f32⟩ : BufTy).Contents (Elt F)),
    StableHlo.unary main_v21 main_v22 (Host.negf : (⟨S32x50000x32, .f32⟩ : BufTy).Contents (Elt F) → (⟨S32x50000x32, .f32⟩ : BufTy).Contents (Elt F)),
    StableHlo.nullary main_cst_2 (constant S_ .f32 0x3F800000#32),
    StableHlo.unary main_cst_2 main_v23 (broadcastInDim S32x50000x32 ![] bcast_S_S32x50000x32 : (⟨S_, .f32⟩ : BufTy).Contents (Elt F) → (⟨S32x50000x32, .f32⟩ : BufTy).Contents (Elt F)),
    StableHlo.binary main_v22 main_v23 main_v24 (Host.divf : (⟨S32x50000x32, .f32⟩ : BufTy).Contents (Elt F) → (⟨S32x50000x32, .f32⟩ : BufTy).Contents (Elt F) → (⟨S32x50000x32, .f32⟩ : BufTy).Contents (Elt F)),
    StableHlo.unary main_v24 main_v25 (Host.exp : (⟨S32x50000x32, .f32⟩ : BufTy).Contents (Elt F) → (⟨S32x50000x32, .f32⟩ : BufTy).Contents (Elt F)),
    StableHlo.nullary main_cst_3 (constant S_ .f32 0x00000000#32),
    StableHlo.binary main_v25 main_cst_3 main_v26 ((fun x v => Host.reduceAdd x v reducesTo_S32x50000x32_S50000x32_d0 h_S_) : (⟨S32x50000x32, .f32⟩ : BufTy).Contents (Elt F) → (⟨S_, .f32⟩ : BufTy).Contents (Elt F) → (⟨S50000x32, .f32⟩ : BufTy).Contents (Elt F)),
    StableHlo.nullary main_cst_4 (constant S_ .f32 0x42000000#32),
    StableHlo.unary main_cst_4 main_v27 (broadcastInDim S50000x32 ![] bcast_S_S50000x32 : (⟨S_, .f32⟩ : BufTy).Contents (Elt F) → (⟨S50000x32, .f32⟩ : BufTy).Contents (Elt F)),
    StableHlo.binary main_v26 main_v27 main_v28 (Host.divf : (⟨S50000x32, .f32⟩ : BufTy).Contents (Elt F) → (⟨S50000x32, .f32⟩ : BufTy).Contents (Elt F) → (⟨S50000x32, .f32⟩ : BufTy).Contents (Elt F)),
    StableHlo.nullary main_c_5 (constantI S_ 32 0#32),
    StableHlo.unary main_c_5 main_v29 (broadcastInDim S50000x32 ![] bcast_S_S50000x32 : (⟨S_, .i32⟩ : BufTy).Contents (Elt F) → (⟨S50000x32, .i32⟩ : BufTy).Contents (Elt F)),
    StableHlo.binary main_arg4 main_v29 main_v30 (cmpi .sge : (⟨S50000x32, .i32⟩ : BufTy).Contents (Elt F) → (⟨S50000x32, .i32⟩ : BufTy).Contents (Elt F) → (⟨S50000x32, .i1⟩ : BufTy).Contents (Elt F)),
    StableHlo.unary main_v30 main_v31 (uitofp .f32 : (⟨S50000x32, .i1⟩ : BufTy).Contents (Elt F) → (⟨S50000x32, .f32⟩ : BufTy).Contents (Elt F)),
    StableHlo.binary main_v28 main_v31 main_v32 (mulf : (⟨S50000x32, .f32⟩ : BufTy).Contents (Elt F) → (⟨S50000x32, .f32⟩ : BufTy).Contents (Elt F) → (⟨S50000x32, .f32⟩ : BufTy).Contents (Elt F)) ]

set_option maxRecDepth 2048 in
/-- The program is that straight line: the two functions unfolded at their calls and the sequencing reassociated,
    both sides are one chain of the same steps. -/
theorem main_eq (c : Dev nD) : main (F := F) c = seq ops := by
  simp only [main, fn_leaky_relu.body, fn_where.body, seq, bind_assoc, pure_bind]

/-- No buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., unary_bufs_sub .., unary_bufs_sub .., unary_bufs_sub .., binary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., nullary_bufs_sub .., binary_bufs_sub .., nullary_bufs_sub .., unary_bufs_sub .., binary_bufs_sub ..,
    nullary_bufs_sub .., unary_bufs_sub .., binary_bufs_sub .., unary_bufs_sub .., binary_bufs_sub ..⟩

end Line

attribute [local irreducible] Host.reduceAdd Host.gather in
set_option maxRecDepth 8192 in
/-- The fold read at the result buffer: each operation's result at its own buffer is its function of its operands'
    contents and at any other buffer what was there; composed, the term of the five arguments. -/
theorem result_eq (V : Valuation τ sig (Elt Ideal)) :
    after (ops (F := Ideal)) V (main_v32 : DevRef τ sig)
      = refTerm (V (main_arg0 : DevRef τ sig)) (V (main_arg1 : DevRef τ sig)) (V (main_arg2 : DevRef τ sig))
          (V (main_arg3 : DevRef τ sig)) (V (main_arg4 : DevRef τ sig)) := by
  after_results_simp
  rfl

/-- No operation writes argument 0. -/
theorem arg0_eq (V : Valuation τ sig (Elt Ideal)) :
    after (ops (F := Ideal)) V (main_arg0 : DevRef τ sig) = V (main_arg0 : DevRef τ sig) := by
  after_results_simp

/-- No operation writes argument 1. -/
theorem arg1_eq (V : Valuation τ sig (Elt Ideal)) :
    after (ops (F := Ideal)) V (main_arg1 : DevRef τ sig) = V (main_arg1 : DevRef τ sig) := by
  after_results_simp

/-- No operation writes argument 2. -/
theorem arg2_eq (V : Valuation τ sig (Elt Ideal)) :
    after (ops (F := Ideal)) V (main_arg2 : DevRef τ sig) = V (main_arg2 : DevRef τ sig) := by
  after_results_simp

/-- No operation writes argument 3. -/
theorem arg3_eq (V : Valuation τ sig (Elt Ideal)) :
    after (ops (F := Ideal)) V (main_arg3 : DevRef τ sig) = V (main_arg3 : DevRef τ sig) := by
  after_results_simp

/-- No operation writes argument 4. -/
theorem arg4_eq (V : Valuation τ sig (Elt Ideal)) :
    after (ops (F := Ideal)) V (main_arg4 : DevRef τ sig) = V (main_arg4 : DevRef τ sig) := by
  after_results_simp

/-- Every weakly fair execution of the reference ends with its result at the composed term and its arguments as launched. -/
theorem run_term (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v32).trans (result_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c))⟩)
    (run_seq scopedRefs_eq scopedSems_eq defs main (fun _ => ops) main_eq (fun _ => ops_sub) m ρ)

end Cert.ReferenceIdeal.Hand

end
-- ==== Proof.RefBridge.lean ====
/-
  The reference's composed term is the specification's weight array, index by index.

  Each operation of the reference is read at an index with explicit coordinates: a broadcast reads its operand at the
  coordinates its dimension map names (zero on a unit axis), the contraction over the six embedding coordinates is a sum
  over `Fin 6`, each of the two reductions is its initial value zero plus a sum over the reduced axis, and the
  pointwise operations read through. The gather is never opened: both sides apply the same one to the same features.
-/
import proofs.«414107_j53626961658417_1_alg».proof.Proof.RefTerm
import Idealize.ShloMosaic.Lib.Pipeline.Value
import Idealize.ShloMosaic.Lib.ValueLayout
import Idealize.ShloMosaic.Lib.IdealHost

noncomputable section

namespace Cert.ReferenceIdeal.Hand

open Cert.ReferenceIdeal Cert.ReferenceIdeal.Gen Idealize.ShloMosaic Idealize.ShloMosaic.ValueIdx

/-! ## The broadcasts, each read at an index -/

section Broadcasts
variable {α : Type}

/-- [32, 50000] as a column [32, 50000, 1]. -/
theorem bcast_x_col_apply (X : S32x50000.Idx → α) (bb : Fin 32) (n : Fin 50000) :
    broadcastInDim S32x50000x1 ![0, 1] bcast_S32x50000_S32x50000x1_0_1 X (ix3 bb n (0 : Fin 1)) = X (ix2 bb n) :=
  broadcastInDim_apply _ _ _ _ _ (by intro a; match a with | ⟨0, _⟩ => rfl | ⟨1, _⟩ => rfl)

/-- The column [32, 50000, 1] along the six embedding coordinates. -/
theorem bcast_x_full_apply (X : S32x50000x1.Idx → α) (bb : Fin 32) (n : Fin 50000) (e : Fin 6) :
    broadcastInDim S32x50000x6 ![0, 1, 2] bcast_S32x50000x1_S32x50000x6_0_1_2 X (ix3 bb n e) = X (ix3 bb n (0 : Fin 1)) :=
  broadcastInDim_apply _ _ _ _ _ (by intro a; match a with | ⟨0, _⟩ => rfl | ⟨1, _⟩ => rfl | ⟨2, _⟩ => rfl)

/-- [50000, 6] under a leading unit axis. -/
theorem bcast_ne_row_apply (X : S50000x6.Idx → α) (n : Fin 50000) (e : Fin 6) :
    broadcastInDim S1x50000x6 ![1, 2] bcast_S50000x6_S1x50000x6_1_2 X (ix3 (0 : Fin 1) n e) = X (ix2 n e) :=
  broadcastInDim_apply _ _ _ _ _ (by intro a; match a with | ⟨0, _⟩ => rfl | ⟨1, _⟩ => rfl)

/-- [1, 50000, 6] along the batch rows. -/
theorem bcast_ne_full_apply (X : S1x50000x6.Idx → α) (bb : Fin 32) (n : Fin 50000) (e : Fin 6) :
    broadcastInDim S32x50000x6 ![0, 1, 2] bcast_S1x50000x6_S32x50000x6_0_1_2 X (ix3 bb n e) = X (ix3 (0 : Fin 1) n e) :=
  broadcastInDim_apply _ _ _ _ _ (by intro a; match a with | ⟨0, _⟩ => rfl | ⟨1, _⟩ => rfl | ⟨2, _⟩ => rfl)

/-- The bias [3] under two leading unit axes. -/
theorem bcast_b_row_apply (X : S3.Idx → α) (j : Fin 3) :
    broadcastInDim S1x1x3 ![2] bcast_S3_S1x1x3_2 X (ix3 (0 : Fin 1) (0 : Fin 1) j) = X (ix1 j) :=
  broadcastInDim_apply _ _ _ _ _ (by intro a; match a with | ⟨0, _⟩ => rfl)

/-- [1, 1, 3] along the batch rows and the nodes. -/
theorem bcast_b_full_apply (X : S1x1x3.Idx → α) (bb : Fin 32) (n : Fin 50000) (j : Fin 3) :
    broadcastInDim S32x50000x3 ![0, 1, 2] bcast_S1x1x3_S32x50000x3_0_1_2 X (ix3 bb n j) = X (ix3 (0 : Fin 1) (0 : Fin 1) j) :=
  broadcastInDim_apply _ _ _ _ _ (by intro a; match a with | ⟨0, _⟩ => rfl | ⟨1, _⟩ => rfl | ⟨2, _⟩ => rfl)

/-- The features [32, 50000, 3] with a unit neighbour axis. -/
theorem bcast_f_col_apply (X : S32x50000x3.Idx → α) (bb : Fin 32) (n : Fin 50000) (j : Fin 3) :
    broadcastInDim S32x50000x1x3 ![0, 1, 3] bcast_S32x50000x3_S32x50000x1x3_0_1_3 X (ix4 bb n (0 : Fin 1) j) = X (ix3 bb n j) :=
  broadcastInDim_apply _ _ _ _ _ (by intro a; match a with | ⟨0, _⟩ => rfl | ⟨1, _⟩ => rfl | ⟨2, _⟩ => rfl)

/-- [32, 50000, 1, 3] along the thirty-two neighbours. -/
theorem bcast_f_full_apply (X : S32x50000x1x3.Idx → α) (bb : Fin 32) (n : Fin 50000) (k : Fin 32) (j : Fin 3) :
    broadcastInDim S32x50000x32x3 ![0, 1, 2, 3] bcast_S32x50000x1x3_S32x50000x32x3_0_1_2_3 X (ix4 bb n k j)
      = X (ix4 bb n (0 : Fin 1) j) :=
  broadcastInDim_apply _ _ _ _ _ (by intro a; match a with | ⟨0, _⟩ => rfl | ⟨1, _⟩ => rfl | ⟨2, _⟩ => rfl | ⟨3, _⟩ => rfl)

end Broadcasts

/-! ## The pointwise host operations at an index -/

theorem hostExp_apply {s : Shape} (y : FVec Ideal s .f32) (i : s.Idx) : Host.exp (F := Ideal) y i = Ideal.exp (y i) := rfl

theorem hostNegf_apply {s : Shape} (y : FVec Ideal s .f32) (i : s.Idx) : Host.negf (F := Ideal) y i = -(y i) := rfl

theorem uitofp_apply {s : Shape} {w : Nat} (v : IVec s w) (i : s.Idx) :
    uitofp (F := Ideal) .f32 v i = ((((v i).toNat : ℝ)) : EReal) := rfl

theorem cmpi_apply {s : Shape} {w : Nat} (p : CmpIPredicate) (u v : IVec s w) (i : s.Idx) :
    cmpi p u v i = IntOp.cmpi p (u i) (v i) := rfl

/-! ## The contraction over the six embedding coordinates -/

theorem lhs_axis0 (i : S32x50000x3.Idx) (q : dot_S32x50000x6_S3x6_S32x50000x3_2_1_01_0_n_n.contr.Idx) :
    (dot_S32x50000x6_S3x6_S32x50000x3_2_1_01_0_n_n.lhsIdx i q 0).val = (i 0).val := by
  unfold DotDims.lhsIdx
  rw [dif_neg (show ¬(0 : Fin S32x50000x6.rank) ∈ dot_S32x50000x6_S3x6_S32x50000x3_2_1_01_0_n_n.lhsBatch by decide),
    dif_pos (show (0 : Fin S32x50000x6.rank) ∈ dot_S32x50000x6_S3x6_S32x50000x3_2_1_01_0_n_n.lhsNonContracting by decide)]
  rfl

theorem lhs_axis1 (i : S32x50000x3.Idx) (q : dot_S32x50000x6_S3x6_S32x50000x3_2_1_01_0_n_n.contr.Idx) :
    (dot_S32x50000x6_S3x6_S32x50000x3_2_1_01_0_n_n.lhsIdx i q 1).val = (i 1).val := by
  unfold DotDims.lhsIdx
  rw [dif_neg (show ¬(1 : Fin S32x50000x6.rank) ∈ dot_S32x50000x6_S3x6_S32x50000x3_2_1_01_0_n_n.lhsBatch by decide),
    dif_pos (show (1 : Fin S32x50000x6.rank) ∈ dot_S32x50000x6_S3x6_S32x50000x3_2_1_01_0_n_n.lhsNonContracting by decide)]
  rfl

theorem lhs_axis2 (i : S32x50000x3.Idx) (q : dot_S32x50000x6_S3x6_S32x50000x3_2_1_01_0_n_n.contr.Idx) :
    (dot_S32x50000x6_S3x6_S32x50000x3_2_1_01_0_n_n.lhsIdx i q 2).val = (q ⟨0, by decide⟩).val :=
  dot_S32x50000x6_S3x6_S32x50000x3_2_1_01_0_n_n.lhsIdx_val_of_single rfl i q

theorem rhs_axis0 (i : S32x50000x3.Idx) (q : dot_S32x50000x6_S3x6_S32x50000x3_2_1_01_0_n_n.contr.Idx) :
    (dot_S32x50000x6_S3x6_S32x50000x3_2_1_01_0_n_n.rhsIdx i q 0).val = (i 2).val := by
  unfold DotDims.rhsIdx
  rw [dif_neg (show ¬(0 : Fin S3x6.rank) ∈ dot_S32x50000x6_S3x6_S32x50000x3_2_1_01_0_n_n.rhsBatch by decide),
    dif_pos (show (0 : Fin S3x6.rank) ∈ dot_S32x50000x6_S3x6_S32x50000x3_2_1_01_0_n_n.rhsNonContracting by decide)]
  rfl

theorem rhs_axis1 (i : S32x50000x3.Idx) (q : dot_S32x50000x6_S3x6_S32x50000x3_2_1_01_0_n_n.contr.Idx) :
    (dot_S32x50000x6_S3x6_S32x50000x3_2_1_01_0_n_n.rhsIdx i q 1).val = (q ⟨0, by decide⟩).val :=
  dot_S32x50000x6_S3x6_S32x50000x3_2_1_01_0_n_n.rhsIdx_val_of_single rfl i q

/-- The contraction at (bb, n, j): the sum over the six embedding coordinates of the left operand at (bb, n, e) times the
    right at (j, e). -/
theorem dot_ix3 (L : FVec Ideal S32x50000x6 .f32) (R : FVec Ideal S3x6 .f32) (bb : Fin 32) (n : Fin 50000) (j : Fin 3) :
    Host.dotGeneral (F := Ideal) dot_S32x50000x6_S3x6_S32x50000x3_2_1_01_0_n_n none L R (ix3 bb n j)
      = ∑ e : Fin 6, L (ix3 bb n e) * R (ix2 j e) := by
  simp only [Host.dotGeneral]
  rw [Ideal.dotGeneral_apply, ← Equiv.sum_comp (contrEquiv1 dot_S32x50000x6_S3x6_S32x50000x3_2_1_01_0_n_n 6 rfl rfl).symm]
  refine Finset.sum_congr rfl fun e _ => ?_
  have hk := contrEquiv1_symm_val dot_S32x50000x6_S3x6_S32x50000x3_2_1_01_0_n_n 6 rfl rfl e
  have el : dot_S32x50000x6_S3x6_S32x50000x3_2_1_01_0_n_n.lhsIdx (ix3 bb n j) ((contrEquiv1 dot_S32x50000x6_S3x6_S32x50000x3_2_1_01_0_n_n 6 rfl rfl).symm e) = ix3 bb n e :=
    funext fun a => Fin.ext (by
      match a with
      | ⟨0, _⟩ => exact lhs_axis0 _ _
      | ⟨1, _⟩ => exact lhs_axis1 _ _
      | ⟨2, _⟩ => exact (lhs_axis2 _ _).trans hk)
  have er : dot_S32x50000x6_S3x6_S32x50000x3_2_1_01_0_n_n.rhsIdx (ix3 bb n j) ((contrEquiv1 dot_S32x50000x6_S3x6_S32x50000x3_2_1_01_0_n_n 6 rfl rfl).symm e) = ix2 j e :=
    funext fun a => Fin.ext (by
      match a with
      | ⟨0, _⟩ => exact rhs_axis0 _ _
      | ⟨1, _⟩ => exact (rhs_axis1 _ _).trans hk)
  rw [el, er]

/-! ## The feature array -/

/-- The layer before its activation, at (bb, n, j). -/
theorem refPre_ix3 (x : FVec Ideal S32x50000 .f32) (ne : FVec Ideal S50000x6 .f32) (w : FVec Ideal S3x6 .f32) (b : FVec Ideal S3 .f32)
    (bb : Fin 32) (n : Fin 50000) (j : Fin 3) :
    refPre x ne w b (ix3 bb n j) = (∑ e : Fin 6, (x (ix2 bb n) + ne (ix2 n e)) * w (ix2 j e)) + b (ix1 j) := by
  unfold refPre
  rw [addf_apply, dot_ix3, bcast_b_full_apply, bcast_b_row_apply]
  refine congrArg (· + _) (Finset.sum_congr rfl fun e _ => ?_)
  rw [addf_apply, bcast_x_full_apply, bcast_x_col_apply, bcast_ne_full_apply, bcast_ne_row_apply]

/-- The reference's feature at (bb, n, j) is the specification's. -/
theorem refFeat_ix3 (x : FVec Ideal S32x50000 .f32) (ne : FVec Ideal S50000x6 .f32) (w : FVec Ideal S3x6 .f32) (b : FVec Ideal S3 .f32)
    (bb : Fin 32) (n : Fin 50000) (j : Fin 3) :
    refFeat x ne w b (ix3 bb n j) = Cert.Spec.featAt x ne w b bb n j := by
  unfold refFeat
  rw [select_apply, cmpf_apply, mulf_apply, broadcastInDim_scalar_apply, broadcastInDim_scalar_apply, refPre_ix3]
  rfl

/-- The reference's feature array is the specification's. -/
theorem refFeat_eq (x : FVec Ideal S32x50000 .f32) (ne : FVec Ideal S50000x6 .f32) (w : FVec Ideal S3x6 .f32) (b : FVec Ideal S3 .f32) :
    refFeat x ne w b = Cert.Spec.feat x ne w b := by
  funext i
  obtain ⟨bb, n, j, rfl⟩ : ∃ (bb : Fin 32) (n : Fin 50000) (j : Fin 3), i = ix3 bb n j := ⟨i 0, i 1, i 2, eq_ix3 i⟩
  rw [Cert.Spec.feat_ix3]
  exact refFeat_ix3 x ne w b bb n j

/-! ## The weights from the features -/

/-- The difference array at (bb, n, k, j): the node's feature less its gathered neighbour's. -/
theorem refDiff_ix4 (f : FVec Ideal S32x50000x3 .f32) (a : IVec S50000x32 32) (bb : Fin 32) (n : Fin 50000) (k : Fin 32) (j : Fin 3) :
    refDiff f a (ix4 bb n k j) = f (ix3 bb n j) - gath a f (ix4 bb n k j) := by
  unfold refDiff gath
  rw [subf_apply, bcast_f_full_apply, bcast_f_col_apply]

/-- The sum over the three features: axis 3 of [32, 50000, 32, 3], from the initial value zero. -/
theorem reduce_feat_ix3 (z : FVec Ideal S32x50000x32x3 .f32) (bb : Fin 32) (n : Fin 50000) (k : Fin 32) :
    Host.reduceAdd (F := Ideal) z (constant (F := Ideal) S_ .f32 0x00000000#32) reducesTo_S32x50000x32x3_S32x50000x32_d3 h_S_ (ix3 bb n k)
      = ∑ j : Fin 3, z (ix4 bb n k j) := by
  rw [hostReduceAdd_apply, constant_apply, Ideal.ofBits_zero_f32,
    Ideal.hostReduceAdd_single reducesTo_S32x50000x32x3_S32x50000x32_d3 (by decide), zero_add]
  refine Finset.sum_congr rfl fun j _ => ?_
  exact congrArg z (funext fun a => Fin.ext (by
    match a with | ⟨0, _⟩ => rfl | ⟨1, _⟩ => rfl | ⟨2, _⟩ => rfl | ⟨3, _⟩ => rfl))

/-- The sum over the thirty-two batch rows: axis 0 of [32, 50000, 32], from the initial value zero. -/
theorem reduce_batch_ix2 (y : FVec Ideal S32x50000x32 .f32) (n : Fin 50000) (k : Fin 32) :
    Host.reduceAdd (F := Ideal) y (constant (F := Ideal) S_ .f32 0x00000000#32) reducesTo_S32x50000x32_S50000x32_d0 h_S_ (ix2 n k)
      = ∑ bb : Fin 32, y (ix3 bb n k) := by
  rw [hostReduceAdd_apply, constant_apply, Ideal.ofBits_zero_f32,
    Ideal.hostReduceAdd_single reducesTo_S32x50000x32_S50000x32_d0 (by decide), zero_add]
  refine Finset.sum_congr rfl fun bb _ => ?_
  exact congrArg y (funext fun a => Fin.ext (by
    match a with | ⟨0, _⟩ => rfl | ⟨1, _⟩ => rfl | ⟨2, _⟩ => rfl))

/-- The exponential of minus the squared distance over one, at (bb, n, k). -/
theorem expArg_ix3 (s : FVec Ideal S32x50000x32 .f32) (bb : Fin 32) (n : Fin 50000) (k : Fin 32) :
    Host.exp (F := Ideal) (Host.divf (F := Ideal) (Host.negf (F := Ideal) s)
        (broadcastInDim S32x50000x32 ![] bcast_S_S32x50000x32 (constant (F := Ideal) S_ .f32 0x3F800000#32))) (ix3 bb n k)
      = Ideal.exp (Ideal.div (-(s (ix3 bb n k))) (Ideal.ofBits .f32 0x3F800000#32)) := by
  rw [hostExp_apply, hostDivf_apply, hostNegf_apply, broadcastInDim_scalar_apply, constant_apply]

/-- The neighbour word's sign mask at (n, k). -/
theorem mask_ix2 (a : IVec S50000x32 32) (n : Fin 50000) (k : Fin 32) :
    uitofp (F := Ideal) .f32 (cmpi .sge a (broadcastInDim S50000x32 ![] bcast_S_S50000x32 (constantI S_ 32 0#32))) (ix2 n k)
      = Cert.Spec.mask (a (ix2 n k)) := by
  rw [uitofp_apply, cmpi_apply, broadcastInDim_scalar_apply]
  rfl

/-- The weight array at (n, k), from any feature array. -/
theorem refTail_ix2 (f : FVec Ideal S32x50000x3 .f32) (a : IVec S50000x32 32) (n : Fin 50000) (k : Fin 32) :
    refTail f a (ix2 n k)
      = Cert.Spec.wgt (fun bb j => f (ix3 bb n j)) (fun bb j => gath a f (ix4 bb n k j)) (a (ix2 n k)) := by
  unfold refTail
  rw [mulf_apply, mask_ix2, hostDivf_apply, broadcastInDim_scalar_apply, constant_apply, reduce_batch_ix2]
  unfold Cert.Spec.wgt
  refine congrArg (fun s => Ideal.div s _ * _) (Finset.sum_congr rfl fun bb _ => ?_)
  rw [expArg_ix3, reduce_feat_ix3]
  refine congrArg (fun s => Ideal.exp (Ideal.div (-s) _)) (Finset.sum_congr rfl fun j _ => ?_)
  rw [mulf_apply, refDiff_ix4]

/-- The reference's result is the specification's weight array, the neighbours' rows brought by the reference's gather. -/
theorem refTerm_eq (x : FVec Ideal S32x50000 .f32) (ne : FVec Ideal S50000x6 .f32) (w : FVec Ideal S3x6 .f32) (b : FVec Ideal S3 .f32)
    (a : IVec S50000x32 32) :
    refTerm x ne w b a = Cert.Spec.result (gath a) x ne w b a := by
  funext i
  obtain ⟨n, k, rfl⟩ : ∃ (n : Fin 50000) (k : Fin 32), i = ix2 n k := ⟨i 0, i 1, eq_ix2 i⟩
  rw [Cert.Spec.result_ix2, refTerm, refFeat_eq, refTail_ix2]
  rfl

end Cert.ReferenceIdeal.Hand

end
-- ==== Proof.RefValue.lean ====
/-
  The reference program, run: every execution ends with the result buffer at the specification's weight array
  of the argument arrays, the arguments unchanged — its run to the composed term, and that term read index by index.
-/
import proofs.«414107_j53626961658417_1_alg».proof.Proof.RefRun
import proofs.«414107_j53626961658417_1_alg».proof.Proof.RefBridge

noncomputable section

namespace Cert.ReferenceIdeal.Hand

open Cert.ReferenceIdeal Cert.ReferenceIdeal.Gen Idealize.ShloMosaic Idealize.ShloMosaic.TcCoe Idealize.SL.Sem

/-- Every weakly fair execution of the reference ends with its result at the specification and its arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32)
        = Cert.Spec.result (gath (m ((c.tc : Thread nD τ).loc main_arg4)))
            (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (refTerm_eq _ _ _ _ _), (h c).2⟩) (run_term m ρ)

end Cert.ReferenceIdeal.Hand

end
-- ==== Proof.lean ====
/-
  The certificate's claims, assembled.

  Both idealized programs end with the weight array of the specification (Proof/Spec.lean): the kernel program by its
  two launches read block by block (Proof/KernelValue.lean), the reference by its straight line of array operations
  (Proof/RefValue.lean). Each states its result with the neighbours' feature rows brought by its own gather; the two
  gathers are one function — the same dimension numbers over the same shapes, at the same wrapped start indices — so
  from memories that agree on the five arguments the two results are equal element by element. The three frames are
  the runs with the result dropped; the idealization rewrote nothing, so there is nothing to preserve.
-/
import proofs.«414107_j53626961658417_1_alg».proof.Defs
import proofs.«414107_j53626961658417_1_alg».proof.Proof.Gen.Kernel
import proofs.«414107_j53626961658417_1_alg».proof.Proof.Gen.Kernel.Frame
import proofs.«414107_j53626961658417_1_alg».proof.Proof.Gen.KernelIdeal
import proofs.«414107_j53626961658417_1_alg».proof.Proof.Gen.KernelIdeal.Frame
import proofs.«414107_j53626961658417_1_alg».proof.Proof.Gen.ReferenceIdeal
import proofs.«414107_j53626961658417_1_alg».proof.Proof.Gen.Pre_finite_inputs
import proofs.«414107_j53626961658417_1_alg».proof.Proof.KernelValue
import proofs.«414107_j53626961658417_1_alg».proof.Proof.RefValue

noncomputable section

namespace Cert.Proof

open Idealize.ShloMosaic Idealize.ShloMosaic.TcCoe Idealize.SL.Sem

/-- The two programs gather the neighbours' rows by one function: equal dimension numbers, equal shapes, the start
    indices the same expression of the neighbour words. -/
theorem gath_eq (a : IVec Cert.Spec.SA 32) : Cert.KernelIdeal.Hand.gath a = Cert.ReferenceIdeal.Hand.gath a := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Hand.run m ρ)

/-- Both runs end at the specification's weight array; on agreeing arguments that is one array. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2]
  exact (congrArg (fun G => Cert.Spec.result G _ _ _ _ _) (gath_eq _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
